-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S128 .f32) (main_arg10 : FVec F S128x256 .f32) (main_arg11 : FVec F S256 .f32) (main_arg12 : FVec F S256x2 .f32) (main_arg13 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x2 .f32 := Host.absf main_arg12
  let main_cst_18 : FVec F S_ .f32 := constant S_ .f32 0x7F800000#32
  let main_v50 : FVec F S256x2 .f32 := broadcastInDim S256x2 ![] bcast_S_S256x2 main_cst_18
  fn_part3 (F := F) main_arg13 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x256 .f32) (main_arg11 : FVec F S256 .f32) (main_arg12 : FVec F S256x2 .f32) (main_arg13 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x640000 32) (main_arg2 : FVec F S640000x1 .f32) (main_arg3 : IVec S100000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x256 .f32) (main_arg11 : FVec F S256 .f32) (main_arg12 : FVec F S256x2 .f32) (main_arg13 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S5000x128 : Shape := ⟨2, ![5000, 128]⟩
abbrev S640000x128 : Shape := ⟨2, ![640000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x256 : Shape := ⟨2, ![1, 256]⟩
abbrev S1x2 : Shape := ⟨2, ![1, 2]⟩
abbrev S512x2 : Shape := ⟨2, ![512, 2]⟩
abbrev S512x256 : Shape := ⟨2, ![512, 256]⟩

abbrev nBuf : Space → Nat
  | .hbm => 113
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x1, .f32⟩
  | .hbm, ⟨3, _⟩ => ⟨S100000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S640000, .f32⟩
  | .hbm, ⟨19, _⟩ => ⟨S_, .f32⟩
  | .hbm, ⟨20, _⟩ => ⟨S100000, .f32⟩
  | .hbm, ⟨21, _⟩ => ⟨S640000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000, .f32⟩
  | .hbm, ⟨53, _⟩ => ⟨S640000, .f32⟩
  | .hbm, ⟨54, _⟩ => ⟨S100000x128, .f32⟩
  | .hbm, ⟨55, _⟩ => ⟨S100000x128, .f32⟩
  | .hbm, ⟨56, _⟩ => ⟨S640000x1, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x128, .f32⟩
  | .hbm, ⟨66, _⟩ => ⟨S640000x128, .f32⟩
  | .hbm, ⟨67, _⟩ => ⟨S640000x128, .f32⟩
  | .hbm, ⟨68, _⟩ => ⟨S_, .f32⟩
  | .hbm, ⟨69, _⟩ => ⟨S100000x128, .f32⟩
  | .hbm, ⟨70, _⟩ => ⟨S640000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S640000x1, .f32⟩
  | .hbm, ⟨77, _⟩ => ⟨S_, .i32⟩
  | .hbm, ⟨78, _⟩ => ⟨S640000, .i32⟩
  | .hbm, ⟨79, _⟩ => ⟨S640000, .i1⟩
  | .hbm, ⟨80, _⟩ => ⟨S_, .i32⟩
  | .hbm, ⟨81, _⟩ => ⟨S640000, .i32⟩
  | .hbm, ⟨82, _⟩ => ⟨S640000, .i32⟩
  | .hbm, ⟨83, _⟩ => ⟨S640000, .i32⟩
  | .hbm, ⟨84, _⟩ => ⟨S640000x1, .i32⟩
  | .hbm, ⟨85, _⟩ => ⟨S640000x128, .f32⟩
  | .hbm, ⟨86, _⟩ => ⟨S640000x128, .f32⟩
  | .hbm, ⟨87, _⟩ => ⟨S640000x128, .f32⟩
  | .hbm, ⟨88, _⟩ => ⟨S_, .f32⟩
  | .hbm, ⟨89, _⟩ => ⟨S100000x128, .f32⟩
  | .hbm, ⟨90, _⟩ => ⟨S640000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S512, .f32⟩
  | .hbm, ⟨98, _⟩ => ⟨S100000x1, .i32⟩
  | .hbm, ⟨99, _⟩ => ⟨S512, .f32⟩
  | .hbm, ⟨100, _⟩ => ⟨S_, .f32⟩
  | .hbm, ⟨101, _⟩ => ⟨S512x128, .f32⟩
  | .hbm, ⟨102, _⟩ => ⟨S100000x1, .i32⟩
  | .hbm, ⟨103, _⟩ => ⟨S512x128, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x128, .f32⟩
  | .hbm, ⟨109, _⟩ => ⟨S512x128, .f32⟩
  | .hbm, ⟨110, _⟩ => ⟨S1x256, .f32⟩
  | .hbm, ⟨111, _⟩ => ⟨S1x2, .f32⟩
  | .hbm, ⟨112, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x256, .f32⟩
  | .local _ .vmem, ⟨32, _⟩ => ⟨S1x256, .f32⟩
  | .local _ .vmem, ⟨33, _⟩ => ⟨S256x2, .f32⟩
  | .local _ .vmem, ⟨34, _⟩ => ⟨S1x2, .f32⟩
  | .local _ .vmem, ⟨35, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000x1_S640000 : S640000x1.ShapeCasts S640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S256_S1x256 : S256.ShapeCasts S1x256
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x2_S512x2_1_0_0_1_n_n_wf : DotDims.WF S512x256 S256x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x2.size a ≤ S512x2.size a
  hwx4_5 : ∀ i : grid4.Coords, EltTy.bits .f32 = 32 ∨ (Rect.block (s := S512x2) S512x2.size (cc4_transform_5 i) (hinb4_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S256x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S512x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x1 : Shape := ⟨2, ![640000, 1]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x256 : Shape := ⟨2, ![512, 256]⟩
abbrev S1x256 : Shape := ⟨2, ![1, 256]⟩
abbrev S512x2 : Shape := ⟨2, ![512, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x640000, .i32⟩
  | 2 => ⟨S640000x1, .f32⟩
  | 3 => ⟨S100000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x256, .f32⟩
  | 11 => ⟨S256, .f32⟩
  | 12 => ⟨S256x2, .f32⟩
  | 13 => ⟨S2, .f32⟩
  | 14 => ⟨S1x640000, .i32⟩
  | 15 => ⟨S640000, .i32⟩
  | 16 => ⟨S1x640000, .i32⟩
  | 17 => ⟨S640000, .i32⟩
  | 18 => ⟨S640000, .f32⟩
  | 19 => ⟨S_, .f32⟩
  | 20 => ⟨S100000, .f32⟩
  | 21 => ⟨S640000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000, .f32⟩
  | 43 => ⟨S640000, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000, .f32⟩
  | 53 => ⟨S640000, .f32⟩
  | 54 => ⟨S100000x128, .f32⟩
  | 55 => ⟨S640000x1, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S640000x128, .f32⟩
  | 66 => ⟨S640000x128, .f32⟩
  | 67 => ⟨S_, .f32⟩
  | 68 => ⟨S100000x128, .f32⟩
  | 69 => ⟨S640000x1, .i32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S640000x1, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x128, .f32⟩
  | 93 => ⟨S640000x128, .f32⟩
  | 94 => ⟨S640000x128, .f32⟩
  | 95 => ⟨S_, .f32⟩
  | 96 => ⟨S100000x128, .f32⟩
  | 97 => ⟨S640000x1, .i32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .f32⟩
  | 108 => ⟨S100000, .f32⟩
  | 109 => ⟨S_, .f32⟩
  | 110 => ⟨S512, .f32⟩
  | 111 => ⟨S100000x1, .i32⟩
  | 112 => ⟨S512, .f32⟩
  | 113 => ⟨S_, .f32⟩
  | 114 => ⟨S512x128, .f32⟩
  | 115 => ⟨S100000x1, .i32⟩
  | 116 => ⟨S512x128, .f32⟩
  | 117 => ⟨S_, .f32⟩
  | 118 => ⟨S512, .f32⟩
  | 119 => ⟨S512, .f32⟩
  | 120 => ⟨S512x1, .f32⟩
  | 121 => ⟨S512x128, .f32⟩
  | 122 => ⟨S512x128, .f32⟩
  | 123 => ⟨S512x256, .f32⟩
  | 124 => ⟨S1x256, .f32⟩
  | 125 => ⟨S512x256, .f32⟩
  | 126 => ⟨S512x256, .f32⟩
  | 127 => ⟨S_, .f32⟩
  | _ => ⟨S100000x128, .f32⟩

abbrev hbmTy0_1 (i : Nat) : BufTy := match i % 128 with
  | 0 => ⟨S512x256, .f32⟩
  | 1 => ⟨S512x256, .f32⟩
  | 2 => ⟨S512x2, .f32⟩
  | 3 => ⟨S1x2, .f32⟩
  | 4 => ⟨S512x2, .f32⟩
  | 5 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_call2_cst : Ref sig .tc := ⟨.hbm, 79, rfl⟩
abbrev main_call2_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_9 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_cst : Ref sig .tc := ⟨.hbm, 104, rfl⟩
abbrev main_call3_v0 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call4_cst : Ref sig .tc := ⟨.hbm, 127, rfl⟩
abbrev main_call4_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000x1_S640000 : S640000x1.ShapeCasts S640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x2_S512x2_1_0_0_1_n_n_wf : DotDims.WF S512x256 S256x2 S512x2 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

class Facts : Prop extends Facts₀ where

variable [Facts]
-- ==== Proof.Walk0.lean ====
/-
  The kernel program's buffers at the entry of its first region, read at the extended reals.
  Before the first region the program runs the same host operations as the reference on the edge list and the edge
  weights: the target-node degrees by a scatter-add, their inverse square roots where positive, and each edge's
  normalisation `dinv[row] · w · dinv[col]`. So at that boundary the three arrays the later stretches read — the
  normalisation, the source-node indices and the target-node indices — are the reference's own stages of the same
  arguments, and every argument array is as launched, no operation writing one.
  A buffer that no operation of a host stretch writes keeps its contents across the stretch, and a buffer that is no
  window of a region keeps its contents across the region: these two facts, stated for any buffer, carry an array
  from the boundary where it is made to the boundary where it is read.
-/
import proofs.«405618_j49297634623854_2_alg».proof.Proof.Gen.KernelIdeal.Frame
import proofs.«405618_j49297634623854_2_alg».proof.Proof.Gen.ReferenceIdeal.Read
import Idealize.ShloMosaic.PureOps.Ideal
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-- A buffer no operation of the named host stretch writes keeps its contents across the stretch: the stretch's
    operations one by one, each result reference another one. -/
macro "kept_through" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Across the three host stretches before the first region, a buffer none of them writes is as launched. -/
macro "as_launched" : tactic => `(tactic| (
  refine Eq.trans (by kept_through hostOps0_2) ?_
  refine Eq.trans (by kept_through hostOps0_1) ?_
  refine Eq.trans (by kept_through hostOps0) ?_
  rfl))

variable (m : (ℓ : Loc nD τ sig) → Buf (Elt Ideal) ℓ) (ρ : Dev nD → PrngReg)

/-! ## The argument arrays, at the reference's shapes -/

abbrev x (c : Dev nD) : (⟨Cert.ReferenceIdeal.S100000x128, .f32⟩ : BufTy).Contents (Elt Ideal) := m ((c : Thread nD τ).loc main_arg0)
abbrev edges (c : Dev nD) : (⟨Cert.ReferenceIdeal.S2x640000, .i32⟩ : BufTy).Contents (Elt Ideal) := m ((c : Thread nD τ).loc main_arg1)
abbrev weights (c : Dev nD) : (⟨Cert.ReferenceIdeal.S640000x1, .f32⟩ : BufTy).Contents (Elt Ideal) := m ((c : Thread nD τ).loc main_arg2)
abbrev graphOf (c : Dev nD) : (⟨Cert.ReferenceIdeal.S100000, .i32⟩ : BufTy).Contents (Elt Ideal) := m ((c : Thread nD τ).loc main_arg3)
abbrev Wi1 (c : Dev nD) : (⟨Cert.ReferenceIdeal.S128x128, .f32⟩ : BufTy).Contents (Elt Ideal) := m ((c : Thread nD τ).loc main_arg4)
abbrev Wr1 (c : Dev nD) : (⟨Cert.ReferenceIdeal.S128x128, .f32⟩ : BufTy).Contents (Elt Ideal) := m ((c : Thread nD τ).loc main_arg5)
abbrev b1 (c : Dev nD) : (⟨Cert.ReferenceIdeal.S128, .f32⟩ : BufTy).Contents (Elt Ideal) := m ((c : Thread nD τ).loc main_arg6)
abbrev Wi2 (c : Dev nD) : (⟨Cert.ReferenceIdeal.S128x128, .f32⟩ : BufTy).Contents (Elt Ideal) := m ((c : Thread nD τ).loc main_arg7)
abbrev Wr2 (c : Dev nD) : (⟨Cert.ReferenceIdeal.S128x128, .f32⟩ : BufTy).Contents (Elt Ideal) := m ((c : Thread nD τ).loc main_arg8)
abbrev b2 (c : Dev nD) : (⟨Cert.ReferenceIdeal.S128, .f32⟩ : BufTy).Contents (Elt Ideal) := m ((c : Thread nD τ).loc main_arg9)
abbrev mW1 (c : Dev nD) : (⟨Cert.ReferenceIdeal.S128x256, .f32⟩ : BufTy).Contents (Elt Ideal) := m ((c : Thread nD τ).loc main_arg10)
abbrev mb1 (c : Dev nD) : (⟨Cert.ReferenceIdeal.S256, .f32⟩ : BufTy).Contents (Elt Ideal) := m ((c : Thread nD τ).loc main_arg11)
abbrev mW2 (c : Dev nD) : (⟨Cert.ReferenceIdeal.S256x2, .f32⟩ : BufTy).Contents (Elt Ideal) := m ((c : Thread nD τ).loc main_arg12)
abbrev mb2 (c : Dev nD) : (⟨Cert.ReferenceIdeal.S2, .f32⟩ : BufTy).Contents (Elt Ideal) := m ((c : Thread nD τ).loc main_arg13)

/-! ## The host stretches before the first region, each over any contents it starts from

Each stretch's result is the reference's stage of the same name as soon as the arrays it reads are the reference's
stages: the operations are the same, so only the leaves differ, and they are given. -/

section Stretches
variable (Vv : Valuation τ sig (Elt Ideal))
variable (e : (⟨Cert.ReferenceIdeal.S2x640000, .i32⟩ : BufTy).Contents (Elt Ideal))
variable (w : (⟨Cert.ReferenceIdeal.S640000x1, .f32⟩ : BufTy).Contents (Elt Ideal))

/-- The source-node indices: row 0 of the edge list. -/
theorem stretch0_row (he : Vv (Proc.devRef .tc main_arg1) = e) :
    StableHlo.after hostOps0 Vv (Proc.devRef .tc main_v1) = Cert.ReferenceIdeal.Read.val_main_v1 (F := Ideal) e := by
  after_results_simp
  rw [he]
  simp only [Cert.ReferenceIdeal.Read.val_main_v0, Cert.ReferenceIdeal.Read.val_main_v1]
  rfl
/-- The target-node indices: row 1 of the edge list. -/
theorem stretch0_col (he : Vv (Proc.devRef .tc main_arg1) = e) :
    StableHlo.after hostOps0 Vv (Proc.devRef .tc main_v3) = Cert.ReferenceIdeal.Read.val_main_v3 (F := Ideal) e := by
  after_results_simp
  rw [he]
  simp only [Cert.ReferenceIdeal.Read.val_main_v2, Cert.ReferenceIdeal.Read.val_main_v3]
  rfl
/-- The edge weights as a vector. -/
theorem stretch0_w (hw : Vv (Proc.devRef .tc main_arg2) = w) :
    StableHlo.after hostOps0 Vv (Proc.devRef .tc main_v4) = Cert.ReferenceIdeal.Read.val_main_v4 (F := Ideal) w := by
  after_results_simp
  rw [hw]
  simp only [Cert.ReferenceIdeal.Read.val_main_v4]
  rfl
/-- Where a node's weighted in-degree is positive. -/
theorem stretch0_pos (he : Vv (Proc.devRef .tc main_arg1) = e) (hw : Vv (Proc.devRef .tc main_arg2) = w) :
    StableHlo.after hostOps0 Vv (Proc.devRef .tc main_v9) = Cert.ReferenceIdeal.Read.val_main_v9 (F := Ideal) e w := by
  after_results_simp
  rw [he, hw]
  simp only [Cert.ReferenceIdeal.Read.val_main_v2, Cert.ReferenceIdeal.Read.val_main_v3, Cert.ReferenceIdeal.Read.val_main_v4, Cert.ReferenceIdeal.Read.val_main_cst, Cert.ReferenceIdeal.Read.val_main_v5, Cert.ReferenceIdeal.Read.val_main_v6, Cert.ReferenceIdeal.Read.val_main_v7, Cert.ReferenceIdeal.Read.val_main_cst_0, Cert.ReferenceIdeal.Read.val_main_v8, Cert.ReferenceIdeal.Read.val_main_v9]
  rfl
/-- The inverse square root of the in-degree clamped away from zero. -/
theorem stretch0_rsqrt (he : Vv (Proc.devRef .tc main_arg1) = e) (hw : Vv (Proc.devRef .tc main_arg2) = w) :
    StableHlo.after hostOps0 Vv (Proc.devRef .tc main_v12) = Cert.ReferenceIdeal.Read.val_main_v12 (F := Ideal) e w := by
  after_results_simp
  rw [he, hw]
  simp only [Cert.ReferenceIdeal.Read.val_main_v2, Cert.ReferenceIdeal.Read.val_main_v3, Cert.ReferenceIdeal.Read.val_main_v4, Cert.ReferenceIdeal.Read.val_main_cst, Cert.ReferenceIdeal.Read.val_main_v5, Cert.ReferenceIdeal.Read.val_main_v6, Cert.ReferenceIdeal.Read.val_main_v7, Cert.ReferenceIdeal.Read.val_main_cst_1, Cert.ReferenceIdeal.Read.val_main_v10, Cert.ReferenceIdeal.Read.val_main_v11, Cert.ReferenceIdeal.Read.val_main_v12]
  rfl
/-- The zero the selection falls back to. -/
theorem stretch0_zero :
    StableHlo.after hostOps0 Vv (Proc.devRef .tc main_cst_2) = Cert.ReferenceIdeal.Read.val_main_cst_2 (F := Ideal) := by
  after_results_simp
  simp only [Cert.ReferenceIdeal.Read.val_main_cst_2]

/-- `dinv`: the inverse square root where the degree is positive, zero elsewhere. The selection is an outlined
    function whose operations read and write their buffers through the transport along each buffer's type; the
    statement is made at the values' own types, where those transports cancel in pairs. -/
theorem stretch01_dinv
    (h9 : (TRef.of (T := ⟨S100000, .i1⟩) main_v9).ofBuf (Vv (Proc.devRef .tc main_v9)) = Cert.ReferenceIdeal.Read.val_main_v9 (F := Ideal) e w)
    (h12 : (TRef.of (T := ⟨S100000, .f32⟩) main_v12).ofBuf (Vv (Proc.devRef .tc main_v12)) = Cert.ReferenceIdeal.Read.val_main_v12 (F := Ideal) e w)
    (hz : (TRef.of (T := ⟨S_, .f32⟩) main_cst_2).ofBuf (Vv (Proc.devRef .tc main_cst_2)) = Cert.ReferenceIdeal.Read.val_main_cst_2 (F := Ideal)) :
    (TRef.of (T := ⟨S100000, .f32⟩) main_v13).ofBuf (StableHlo.after hostOps0_1 Vv (Proc.devRef .tc main_v13))
      = Cert.ReferenceIdeal.Read.val_main_v13 (F := Ideal) e w := by
  after_results_simp
  rw [h9, h12, hz]
  simp only [TRef.ofBuf, TRef.toBuf, cast_cast, cast_eq]
  simp only [Cert.ReferenceIdeal.Read.val_main_call0_v0, Cert.ReferenceIdeal.Read.val_main_call0_v1, Cert.ReferenceIdeal.Read.val_main_v13]

/-- Each edge's normalisation `dinv[row] · w · dinv[col]`. -/
theorem stretch02_norm (h13 : Vv (Proc.devRef .tc main_v13) = Cert.ReferenceIdeal.Read.val_main_v13 (F := Ideal) e w)
    (h4 : Vv (Proc.devRef .tc main_v4) = Cert.ReferenceIdeal.Read.val_main_v4 (F := Ideal) w)
    (h1 : Vv (Proc.devRef .tc main_v1) = Cert.ReferenceIdeal.Read.val_main_v1 (F := Ideal) e)
    (h3 : Vv (Proc.devRef .tc main_v3) = Cert.ReferenceIdeal.Read.val_main_v3 (F := Ideal) e) :
    StableHlo.after hostOps0_2 Vv (Proc.devRef .tc main_v29) = Cert.ReferenceIdeal.Read.val_main_v29 (F := Ideal) e w := by
  after_results_simp
  rw [h13, h4, h1, h3]
  simp only [Cert.ReferenceIdeal.Read.val_main_c, Cert.ReferenceIdeal.Read.val_main_v14, Cert.ReferenceIdeal.Read.val_main_v15, Cert.ReferenceIdeal.Read.val_main_c_3, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_c_5, Cert.ReferenceIdeal.Read.val_main_v24, Cert.ReferenceIdeal.Read.val_main_v25, Cert.ReferenceIdeal.Read.val_main_v26, Cert.ReferenceIdeal.Read.val_main_v27, Cert.ReferenceIdeal.Read.val_main_v28, Cert.ReferenceIdeal.Read.val_main_v29]
  rfl

end Stretches

/-! ## The shared prefix at the first region's entry -/

/-- Each edge's normalisation is the reference's stage of the edge list and the edge weights. -/
theorem entry0_norm (c : Dev nD) :
    W3 m ρ c (Proc.devRef .tc main_v29) = Cert.ReferenceIdeal.Read.val_main_v29 (F := Ideal) (edges m c) (weights m c) := by
  have a1 : W0 m ρ c (Proc.devRef .tc main_arg1) = edges m c := rfl
  have a2 : W0 m ρ c (Proc.devRef .tc main_arg2) = weights m c := rfl
  refine stretch02_norm (W2 m ρ c) (edges m c) (weights m c) ?_ ?_ ?_ ?_
  · have d := stretch01_dinv (W1 m ρ c) (edges m c) (weights m c)
      (Eq.trans rfl (stretch0_pos (W0 m ρ c) _ _ a1 a2)) (Eq.trans rfl (stretch0_rsqrt (W0 m ρ c) _ _ a1 a2))
      (Eq.trans rfl (stretch0_zero (W0 m ρ c)))
    exact Eq.trans rfl d
  · exact Eq.trans (by kept_through hostOps0_1) (stretch0_w (W0 m ρ c) _ a2)
  · exact Eq.trans (by kept_through hostOps0_1) (stretch0_row (W0 m ρ c) _ a1)
  · exact Eq.trans (by kept_through hostOps0_1) (stretch0_col (W0 m ρ c) _ a1)

/-- The source-node indices. -/
theorem entry0_row (c : Dev nD) :
    W3 m ρ c (Proc.devRef .tc main_v1) = Cert.ReferenceIdeal.Read.val_main_v1 (F := Ideal) (edges m c) := by
  refine Eq.trans (by kept_through hostOps0_2) ?_
  refine Eq.trans (by kept_through hostOps0_1) ?_
  exact stretch0_row (W0 m ρ c) _ rfl

/-- The target-node indices. -/
theorem entry0_col (c : Dev nD) :
    W3 m ρ c (Proc.devRef .tc main_v3) = Cert.ReferenceIdeal.Read.val_main_v3 (F := Ideal) (edges m c) := by
  refine Eq.trans (by kept_through hostOps0_2) ?_
  refine Eq.trans (by kept_through hostOps0_1) ?_
  exact stretch0_col (W0 m ρ c) _ rfl

/-- The node features are as launched at the first region's entry. -/
theorem entry0_x (c : Dev nD) : W3 m ρ c (Proc.devRef .tc main_arg0) = x m c := by as_launched

end Cert.KernelIdeal.Walk

end
-- ==== Proof.Spec.lean ====
/-
  The whole-array functions the kernel's regions compute, each stated once over the reference's shapes:
  a row-by-matrix product of a [100000, 128] array with a [128, 128] weight; one ARMA layer's output
  `max (agg + r + b, 0)` with the bias a [1, 128] row broadcast over the nodes; and the two-layer head
  `max (g · W₁ + b₁, 0) · W₂ + b₂` over the 512 pooled graphs, the biases rows broadcast over the graphs.
  They are generic in the float instance; the region lemmas read them at the extended reals.
-/
import proofs.«405618_j49297634623854_2_alg».proof.ReferenceIdeal
import proofs.«405618_j49297634623854_2_alg».proof.Proof.Gen.ReferenceIdeal

noncomputable section

namespace Cert.Spec

open Idealize.ShloMosaic Cert.ReferenceIdeal Cert.ReferenceIdeal.Facts₀

variable {F : FTy → Type} [FloatOps F]

/-- `h · W`: every node's 128 features against a 128 × 128 weight. -/
def nodeDot (h : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none h W

/-- One layer's output: the aggregated messages plus the root term plus the bias row, clamped below at zero. -/
def layerOut (agg r : (⟨S100000x128, .f32⟩ : BufTy).Contents (Elt F)) (b : (⟨S1x128, .f32⟩ : BufTy).Contents (Elt F)) :
    (⟨S100000x128, .f32⟩ : BufTy).Contents (Elt F) :=
  maximumf (addf (addf agg r) (broadcastInDim S100000x128 ![0, 1] bcast_S1x128_S100000x128_0_1 b))
    (broadcastInDim S100000x128 ![] bcast_S_S100000x128 (constant S_ .f32 0x00000000#32))

/-- The head over the pooled graphs: a hidden layer of width 256 clamped at zero, then the two class scores. -/
def headOut (g : (⟨S512x128, .f32⟩ : BufTy).Contents (Elt F)) (W1 : (⟨S128x256, .f32⟩ : BufTy).Contents (Elt F))
    (b1 : (⟨S1x256, .f32⟩ : BufTy).Contents (Elt F)) (W2 : (⟨S256x2, .f32⟩ : BufTy).Contents (Elt F))
    (b2 : (⟨S1x2, .f32⟩ : BufTy).Contents (Elt F)) : (⟨S512x2, .f32⟩ : BufTy).Contents (Elt F) :=
  addf (Host.dotGeneral dot_S512x256_S256x2_S512x2_1_0_0_1_n_n none
      (maximumf (addf (Host.dotGeneral dot_S512x128_S128x256_S512x256_1_0_0_1_n_n none g W1)
          (broadcastInDim S512x256 ![0, 1] bcast_S1x256_S512x256_0_1 b1))
        (broadcastInDim S512x256 ![] bcast_S_S512x256 (constant S_ .f32 0x00000000#32)))
      W2)
    (broadcastInDim S512x2 ![0, 1] bcast_S1x2_S512x2_0_1 b2)

end Cert.Spec

end
-- ==== Proof.Region0.lean ====
/-
  Region 0: the two node-wise products of the first layer, `x · Wi1` and `x · Wr1`, computed twenty rows-blocks at a
  time. Point `t` of the grid holds rows `5000 t … 5000 t + 4999` of the node array; each output row is the sum over
  the 128 features of that row's entries against a weight column, so a block of the product depends only on the same
  block of rows, and the twenty blocks tile the [100000, 128] output. At the extended reals the change of float format
  before the product is the identity and the product into a zero accumulator is that plain sum, which is what the
  whole-array product `Cert.Spec.nodeDot` reads at the same index.
-/
import proofs.«405618_j49297634623854_2_alg».proof.Proof.Gen.KernelIdeal.Frame
import proofs.«405618_j49297634623854_2_alg».proof.Proof.Gen.ReferenceIdeal.Read
import proofs.«405618_j49297634623854_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.RegionValue0

open Idealize.ShloMosaic Idealize.ShloMosaic.TcCoe Idealize.SL.Sem
open Cert.KernelIdeal Cert.KernelIdeal.Gen

/-! ## A block's product at an index -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a block, feature `k`. -/
abbrev rowFeat (i : S5000x128.Idx) (k : Fin 128) : S5000x128.Idx := fun a => match a with
  | ⟨0, _⟩ => ⟨(i 0).val, (i 0).isLt⟩
  | ⟨1, _⟩ => ⟨k.val, k.isLt⟩
/-- Feature `k` of the weight, output column `i 1`. -/
abbrev featCol (i : S5000x128.Idx) (k : Fin 128) : S128x128.Idx := fun a => match a with
  | ⟨0, _⟩ => ⟨k.val, k.isLt⟩
  | ⟨1, _⟩ => ⟨(i 1).val, (i 1).isLt⟩

/-- A block of rows times a weight, into a zero accumulator, at the extended reals: entry `(r, q)` is the sum over the
    features `k` of the block's `(r, k)` against the weight's `(k, q)`. -/
theorem tile_matmul_apply (xb : FVec Ideal S5000x128 .bf16) (w : FVec Ideal S128x128 .bf16) (i : S5000x128.Idx) :
    matmul dot_S5000x128_S128x128_S5000x128_1_0_0_1_n_n none xb w (constant S5000x128 .f32 0x00000000#32) i
      = ∑ k : Fin 128, xb (rowFeat i k) * w (featCol i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowFeat i k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx i ((ValueIdx.contrEquiv1 dot_S5000x128_S128x128_S5000x128_1_0_0_1_n_n 128 rfl rfl).symm k) = featCol i k := funext fun a => Fin.ext (by
    match a with
    | ⟨0, _⟩ => exact (rhs_tile_0 _ _).trans hk
    | ⟨1, _⟩ => exact rhs_tile_1 _ _)
  rw [el, er]

/-- The body's first product of its loaded blocks, at an index. -/
theorem pay2_apply (xb : Vec Ideal S5000x128 .f32) (w : Vec Ideal S128x128 .f32) (i : S5000x128.Idx) :
    k0_pay2 (F := Ideal) xb w i = ∑ k : Fin 128, xb (rowFeat i k) * w (featCol i k) := by
  unfold k0_pay2 k0_pay1
  exact tile_matmul_apply _ _ i
/-- The body's second product, at an index. -/
theorem pay3_apply (xb : Vec Ideal S5000x128 .f32) (w : Vec Ideal S128x128 .f32) (i : S5000x128.Idx) :
    k0_pay3 (F := Ideal) xb w i = ∑ k : Fin 128, xb (rowFeat i k) * w (featCol i k) := by
  unfold k0_pay3 k0_pay1
  exact tile_matmul_apply _ _ i

/-! ## From blocks to the arrays -/

-- the region-entry contents: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty points: the row windows sit at block `t` of the rows and block `0` of the
    features, the weights at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK through window 3 is block `t` of `x · Wi`. -/
theorem flushed3_eq (c : Dev nD) (t : Fin cfg0.N) :
    (dat0 V c).flushed 3 t
      = ((cfg0.win 3).blk t).view.read (Elt Ideal) (Cert.Spec.nodeDot (F := Ideal) (V c main_arg0) (V c main_arg4)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets]
  obtain ⟨e00, e01, e10, e11, e20, e21, e30, e31, e40, e41⟩ := index_maps t
  funext j
  show k0_pay2 (F := Ideal) (iblk0 V c 0 t) (iblk0 V c 1 t) j
    = Cert.ReferenceIdeal.Read.val_main_v30 (F := Ideal) (V c main_arg0) (V c main_arg4) (((cfg0.win 3).blk t).view.emb j)
  rw [pay2_apply, Cert.ReferenceIdeal.Read.val_main_v30_apply]
  refine Finset.sum_congr rfl fun k _ => ?_
  have h0 : ((cfg0.win 0).blk t).view.emb (rowFeat j k) = Cert.ReferenceIdeal.Read.lidx_main_v30 (((cfg0.win 3).blk t).view.emb j) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ((cfg0.win 1).blk t).view.emb (featCol j k) = Cert.ReferenceIdeal.Read.ridx_main_v30 (((cfg0.win 3).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hx : iblk0 V c 0 t (rowFeat j k) = V c main_arg0 (Cert.ReferenceIdeal.Read.lidx_main_v30 (((cfg0.win 3).blk t).view.emb j) k) := by
    show V c main_arg0 (((cfg0.win 0).blk t).view.emb (rowFeat j k)) = _
    rw [h0]
  have hw : iblk0 V c 1 t (featCol j k) = V c main_arg4 (Cert.ReferenceIdeal.Read.ridx_main_v30 (((cfg0.win 3).blk t).view.emb j) k) := by
    show V c main_arg4 (((cfg0.win 1).blk t).view.emb (featCol j k)) = _
    rw [h1]
  rw [hx, hw]

/-- WHAT POINT `t` WRITES BACK through window 4 is block `t` of `x · Wr`. -/
theorem flushed4_eq (c : Dev nD) (t : Fin cfg0.N) :
    (dat0 V c).flushed 4 t
      = ((cfg0.win 4).blk t).view.read (Elt Ideal) (Cert.Spec.nodeDot (F := Ideal) (V c main_arg0) (V c main_arg5)) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S128x128) zero_offsets]
  obtain ⟨e00, e01, e10, e11, e20, e21, e30, e31, e40, e41⟩ := index_maps t
  funext j
  show k0_pay3 (F := Ideal) (iblk0 V c 0 t) (iblk0 V c 2 t) j
    = Cert.ReferenceIdeal.Read.val_main_v30 (F := Ideal) (V c main_arg0) (V c main_arg5) (((cfg0.win 4).blk t).view.emb j)
  rw [pay3_apply, Cert.ReferenceIdeal.Read.val_main_v30_apply]
  refine Finset.sum_congr rfl fun k _ => ?_
  have h0 : ((cfg0.win 0).blk t).view.emb (rowFeat j k) = Cert.ReferenceIdeal.Read.lidx_main_v30 (((cfg0.win 4).blk t).view.emb j) k := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have h1 : ((cfg0.win 2).blk t).view.emb (featCol j k) = Cert.ReferenceIdeal.Read.ridx_main_v30 (((cfg0.win 4).blk t).view.emb j) k := by
    funext a; apply Fin.ext
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  have hx : iblk0 V c 0 t (rowFeat j k) = V c main_arg0 (Cert.ReferenceIdeal.Read.lidx_main_v30 (((cfg0.win 4).blk t).view.emb j) k) := by
    show V c main_arg0 (((cfg0.win 0).blk t).view.emb (rowFeat j k)) = _
    rw [h0]
  have hw : iblk0 V c 2 t (featCol j k) = V c main_arg5 (Cert.ReferenceIdeal.Read.ridx_main_v30 (((cfg0.win 4).blk t).view.emb j) k) := by
    show V c main_arg5 (((cfg0.win 2).blk t).view.emb (featCol j k)) = _
    rw [h1]
  rw [hx, hw]

/-- An index of the output array is in point `t`'s block of window 3 iff each coordinate is in the block's range. -/
theorem mem_blk3 (t : Fin cfg0.N) (i : Cert.ReferenceIdeal.S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30_0).slice (win0_3.rect t)).set ↔ _
  rw [View.set_slice_whole, Rect.mem_set_unit]
  exact Iff.rfl
theorem mem_blk4 (t : Fin cfg0.N) (i : Cert.ReferenceIdeal.S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_1).slice (win0_4.rect t)).set ↔ _
  rw [View.set_slice_whole, Rect.mem_set_unit]
  exact Iff.rfl

/-- Row `r` lies in the block of point `r / 5000`. -/
theorem cover3 (i : Cert.ReferenceIdeal.S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e00, e01, e10, e11, e20, e21, e30, e31, e40, e41⟩ := index_maps t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega
theorem cover4 (i : Cert.ReferenceIdeal.S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e00, e01, e10, e11, e20, e21, e30, e31, e40, e41⟩ := index_maps t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the region the first output array is `x · Wi`. -/
theorem region0_out3 (c : Dev nD) :
    (dat0 V c).arrAt 3 cfg0.N = Cert.Spec.nodeDot (F := Ideal) (V c main_arg0) (V c main_arg4) :=
  (dat0 V c).arrAt_eq_of_cover 3 _ (fun t _ => flushed3_eq V c t) cover3
/-- After the region the second output array is `x · Wr`. -/
theorem region0_out4 (c : Dev nD) :
    (dat0 V c).arrAt 4 cfg0.N = Cert.Spec.nodeDot (F := Ideal) (V c main_arg0) (V c main_arg5) :=
  (dat0 V c).arrAt_eq_of_cover 4 _ (fun t _ => flushed4_eq V c t) cover4

end Cert.KernelIdeal.RegionValue0

end
-- ==== Proof.Region1.lean ====
/-
  The bias-and-clamp layer, block by block and then as one array. Each grid point `t` holds rows
  `5000 t … 5000 t + 4999` of the aggregated messages and of the root term, and the one bias row; entry `(r, q)` of
  what it writes back is `max (agg (5000 t + r, q) + root (5000 t + r, q) + bias (0, q), 0)`. That is row `5000 t + r`
  of the whole-array function `Cert.Spec.layerOut`, and the blocks of the grid's points tile the rows, so the output
  array ends holding `layerOut` of the three input arrays.
-/
import proofs.«405618_j49297634623854_2_alg».proof.Proof.Gen.KernelIdeal.Frame
import proofs.«405618_j49297634623854_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue1

open Idealize.ShloMosaic Idealize.ShloMosaic.TcCoe Idealize.SL.Sem Cert.KernelIdeal Cert.KernelIdeal.Gen

/-- The zero offsets of a rectangle that is a whole buffer, as the constant function. -/
theorem hz : (![0, 0] : Fin 2 → Nat) = fun _ => 0 := funext fun a => by fin_cases a <;> rfl

/-- The block index of each window at every grid point: the two row-blocked inputs and the output are at block
    `(t, 0)`, the bias row at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The body's payload and the whole-array function, each at an index -/

/-- The bias row's index under a block's index `(r, q)`: `(0, q)`. -/
abbrev rowOfBlk (j : S5000x128.Idx) : S1x128.Idx := fun a => match a with
  | ⟨0, _⟩ => ⟨0, Nat.one_pos⟩
  | ⟨1, _⟩ => ⟨(j 1).val, (j 1).isLt⟩

/-- The payload at `(r, q)`: the two blocks added there, plus the bias row at `(0, q)`, clamped below at zero. -/
theorem pay_apply (x0 x1 : Vec Ideal S5000x128 .f32) (x2 : Vec Ideal S1x128 .f32) (j : S5000x128.Idx) :
    k1_pay1 (F := Ideal) x0 x1 x2 j = max (x0 j + x1 j + x2 (rowOfBlk j)) 0 := by
  unfold k1_pay1
  simp only [shapeCast_self]
  rw [ValueIdx.maximumf_apply, ValueIdx.addf_apply, ValueIdx.addf_apply, ValueIdx.broadcast_apply]
  rw [broadcastTo_apply x2 broadcasts_S1x128_S5000x128 j (rowOfBlk j) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  show max _ (Ideal.ofBits .f32 0x00000000#32) = _
  rw [Ideal.ofBits_zero_f32]

/-- The bias row's index under an array index `(n, q)`: `(0, q)`. -/
abbrev rowOfArr (i : S100000x128.Idx) : S1x128.Idx := fun a => match a with
  | ⟨0, _⟩ => ⟨0, Nat.one_pos⟩
  | ⟨1, _⟩ => ⟨(i 1).val, (i 1).isLt⟩

/-- The whole-array function at `(n, q)`: the same sum of the two arrays there and the bias row at `(0, q)`, clamped
    below at zero. -/
theorem layerOut_apply (agg r : (⟨S100000x128, .f32⟩ : BufTy).Contents (Elt Ideal)) (b : (⟨S1x128, .f32⟩ : BufTy).Contents (Elt Ideal))
    (i : S100000x128.Idx) :
    Cert.Spec.layerOut (F := Ideal) agg r b i = max (agg i + r i + b (rowOfArr i)) 0 := by
  unfold Cert.Spec.layerOut
  rw [ValueIdx.maximumf_apply, ValueIdx.addf_apply, ValueIdx.addf_apply]
  rw [broadcastInDim_apply _ Cert.ReferenceIdeal.Facts₀.bcast_S1x128_S100000x128_0_1 b i (rowOfArr i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ Cert.ReferenceIdeal.Facts₀.bcast_S_S100000x128 (constant (F := Ideal) Cert.ReferenceIdeal.S_ .f32 0x00000000#32) i (fun a => a.elim0) (fun a => a.elim0)]
  rw [ValueIdx.constant_apply, Ideal.ofBits_zero_f32]

/-! ## What a point writes back, and the array the blocks tile -/

/-- What point `t` writes back is block `t` of the whole-array function of the input arrays: entry `(r, q)` of the
    block is array entry `(5000 t + r, q)`, where both input blocks read their arrays, and the bias block is the bias
    array's one row. -/
theorem flushed_eq (V : (c : Dev nD) → (b : Ref sig .tc) → Buf (Elt Ideal) ((c : Thread nD τ).loc b)) (c : Dev nD) (t : Fin cfg1.N) :
    (dat1 V c).flushed 3 t = ((cfg1.win 3).blk t).view.read (Elt Ideal)
      (Cert.Spec.layerOut (F := Ideal) (V c main_v43) (V c main_v30_1) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e00, e01, e10, e11, e20, e21, e30, e31⟩ := idx_facts t
  funext j
  show k1_pay1 (F := Ideal) (iblk1 V c 0 t) (iblk1 V c 1 t) (iblk1 V c 2 t) j
    = Cert.Spec.layerOut (F := Ideal) (V c main_v43) (V c main_v30_1) (V c main_v44) (((cfg1.win 3).blk t).view.emb j)
  rw [pay_apply, layerOut_apply]
  -- a block's coordinate in its array is (block index) × (block size) + the coordinate inside the block
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (rowOfBlk j) = rowOfArr (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  refine congrArg₂ max (congrArg₂ (· + ·) (congrArg₂ (· + ·) ?_ ?_) ?_) rfl
  · exact congrArg (V c main_v43) h0
  · exact congrArg (V c main_v30_1) h1
  · exact congrArg (V c main_v44) h2

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- The blocks tile the array: row `n` is in the block of point `n / 5000`, and every block spans all the columns. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hq : (i 0).val / 5000 < cfg1.N := by show (i 0).val / 5000 < 20; omega
  obtain ⟨e00, e01, e10, e11, e20, e21, e30, e31⟩ := idx_facts ⟨(i 0).val / 5000, hq⟩
  refine ⟨⟨(i 0).val / 5000, hq⟩, flush1_3 _, ?_⟩
  rw [mem_blk]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hq⟩ (1 : Fin 2) * 128 ≤ (i 1).val
      ∧ (i 1).val < win1_3.index ⟨(i 0).val / 5000, hq⟩ (1 : Fin 2) * 128 + 128
    rw [e31]; omega

variable (V : (c : Dev nD) → (b : Ref sig .tc) → Buf (Elt Ideal) ((c : Thread nD τ).loc b))

/-- After the region the output array is the layer's whole-array function of the three input arrays as the region
    found them: every point writes back its block of that function, and the blocks cover the array. -/
theorem region1_out3 (c : Dev nD) :
    (dat1 V c).arrAt 3 cfg1.N = Cert.Spec.layerOut (F := Ideal) (V c main_v43) (V c main_v30_1) (V c main_v44) :=
  (dat1 V c).arrAt_eq_of_cover 3 _ (fun t _ => flushed_eq V c t) cover

end Cert.KernelIdeal.RegionValue1

end
-- ==== Proof.LibRowVector.lean ====
/-
  Two small facts, over any extents.
  A vector of `a` entries laid out as one row `[1, a]` is the same array whether the row is made by a reshape or by a
  `broadcast_in_dim` that sends the vector's axis to the row's last axis: entry `(0, i)` of either is entry `i` of the
  vector. And clamping a value below at a floor twice is clamping it once: `max (max z f) f = max z f`, since the floor
  is already below `max z f`.
-/
import Idealize.ShloMosaic.PureOps.Ideal
import Idealize.ShloMosaic.Lib.ValueIdx
import Idealize.ShloMosaic.Lib.ValueLayout
import Idealize.ShloMosaic.Lib.Pipeline.Value

noncomputable section

namespace Cert.LibRowVector

open Idealize.ShloMosaic Idealize.ShloMosaic.ValueIdx

variable {α : Type}

/-- Entry `i 1` of the vector: the one coordinate a row's index `(i 0, i 1)` carries. -/
abbrev lastCoord {a : ℕ} (j : (⟨2, ![1, a]⟩ : Shape).Idx) : (⟨1, ![a]⟩ : Shape).Idx := fun d => match d with
  | ⟨0, _⟩ => ⟨(j 1).val, (j 1).isLt⟩

/-- The row made by a reshape reads, at `(0, i)`, the vector at `i`: the two row-major positions agree. -/
theorem shapeCast_row_apply {a : ℕ} (x : (⟨1, ![a]⟩ : Shape).Idx → α)
    (hc : (⟨1, ![a]⟩ : Shape).ShapeCasts ⟨2, ![1, a]⟩) (j : (⟨2, ![1, a]⟩ : Shape).Idx) :
    shapeCast ⟨2, ![1, a]⟩ x hc j = x (lastCoord j) :=
  shapeCast_apply x hc j (lastCoord j) (by
    have h0 : (j 0).val < 1 := (j 0).isLt
    rw [Shape.rowMajor_val_two, Shape.rowMajor_val_one]
    show (j 1).val = (j 0).val * a + (j 1).val
    have h00 : (j 0).val = 0 := by omega
    rw [h00, Nat.zero_mul, Nat.zero_add])

/-- The row made by a `broadcast_in_dim` along the last axis reads the same entry. -/
theorem broadcastInDim_row_apply {a : ℕ} (x : (⟨1, ![a]⟩ : Shape).Idx → α)
    (hb : (⟨1, ![a]⟩ : Shape).BroadcastsInDim ⟨2, ![1, a]⟩ (![1] : Fin 1 → Fin 2)) (j : (⟨2, ![1, a]⟩ : Shape).Idx) :
    broadcastInDim ⟨2, ![1, a]⟩ ![1] hb x j = x (lastCoord j) := by
  refine broadcastInDim_apply (![1] : Fin 1 → Fin 2) hb x j (lastCoord j) fun ax => ?_
  match ax with
  | ⟨0, _⟩ =>
    have h1 : (j 1).val < a := (j 1).isLt
    show (j 1).val = if a = 1 then 0 else (j 1).val
    split
    · omega
    · rfl

/-- The row made by a reshape is the row made by the broadcast. -/
theorem shapeCast_row_eq_broadcastInDim {a : ℕ} (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ ![1] hb x :=
  funext fun j => (shapeCast_row_apply x hc j).trans (broadcastInDim_row_apply x hb j).symm

/-- Clamping below at the same floor twice is clamping once, entry by entry, at the extended reals. -/
theorem maximumf_maximumf_self {s : Shape} {φ : FTy} (z f : FVec Ideal s φ) :
    maximumf (maximumf z f) f = maximumf z f := by
  funext i
  rw [maximumf_apply, maximumf_apply]
  exact max_eq_left (le_max_right _ _)

end Cert.LibRowVector

end
-- ==== Proof.Walk1.lean ====
/-
  From the first region to the end of the first layer.
  Region 0 leaves the two node-wise products `x · Wi1` and `x · Wr1`. The host stretch after it gathers the rows of
  the first product at each edge's source node, scales each by the edge's normalisation, and adds them up at the
  edge's target node: the aggregated messages, the same operations as the reference's, so the result is the
  reference's stage once its inputs are. The bias reaches the next region as a one-row matrix made by a reshape, where
  the reference makes the same row by a broadcast. Region 1 then leaves `max (agg + x · Wr1 + b1, 0)`; the reference
  clamps that array at zero a second time, which changes nothing, so the layer's output is the reference's
  twice-clamped stage.
-/
import proofs.«405618_j49297634623854_2_alg».proof.Proof.Walk0
import proofs.«405618_j49297634623854_2_alg».proof.Proof.Region0
import proofs.«405618_j49297634623854_2_alg».proof.Proof.Region1
import proofs.«405618_j49297634623854_2_alg».proof.Proof.Spec
import proofs.«405618_j49297634623854_2_alg».proof.Proof.LibRowVector

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-! ## The first aggregation stretch, over any contents it starts from -/

section Stretch
variable (Vv : Valuation τ sig (Elt Ideal))
variable (e : (⟨Cert.ReferenceIdeal.S2x640000, .i32⟩ : BufTy).Contents (Elt Ideal))
variable (w : (⟨Cert.ReferenceIdeal.S640000x1, .f32⟩ : BufTy).Contents (Elt Ideal))
variable (h : (⟨Cert.ReferenceIdeal.S100000x128, .f32⟩ : BufTy).Contents (Elt Ideal))
variable (Wi : (⟨Cert.ReferenceIdeal.S128x128, .f32⟩ : BufTy).Contents (Elt Ideal))
variable (b : (⟨Cert.ReferenceIdeal.S128, .f32⟩ : BufTy).Contents (Elt Ideal))

/-- The aggregated messages of the first layer: over the edges, `norm × (h · Wi)[row]` added up at `col`. -/
theorem stretch1_agg (h29 : Vv (Proc.devRef .tc main_v29) = Cert.ReferenceIdeal.Read.val_main_v29 (F := Ideal) e w)
    (h1 : Vv (Proc.devRef .tc main_v1) = Cert.ReferenceIdeal.Read.val_main_v1 (F := Ideal) e)
    (h3 : Vv (Proc.devRef .tc main_v3) = Cert.ReferenceIdeal.Read.val_main_v3 (F := Ideal) e)
    (hd : Vv (Proc.devRef .tc main_v30_0) = Cert.Spec.nodeDot (F := Ideal) h Wi) :
    StableHlo.after hostOps1 Vv (Proc.devRef .tc main_v43) = Cert.ReferenceIdeal.Read.val_main_v43 (F := Ideal) h e w Wi := by
  after_results_simp
  rw [h29, h1, h3, hd]
  simp only [Cert.ReferenceIdeal.Read.val_main_v30, Cert.ReferenceIdeal.Read.val_main_v31, Cert.ReferenceIdeal.Read.val_main_c_6, Cert.ReferenceIdeal.Read.val_main_v32, Cert.ReferenceIdeal.Read.val_main_v33, Cert.ReferenceIdeal.Read.val_main_c_7, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_cst_8, Cert.ReferenceIdeal.Read.val_main_v41, Cert.ReferenceIdeal.Read.val_main_v42, Cert.ReferenceIdeal.Read.val_main_v43, Cert.Spec.nodeDot]
  rfl

/-- The bias as one row: the reshape of the vector is its broadcast along the row's last axis. -/
theorem stretch1_bias (hb : Vv (Proc.devRef .tc main_arg6) = b) :
    StableHlo.after hostOps1 Vv (Proc.devRef .tc main_v44) = Cert.ReferenceIdeal.Read.val_main_v46 (F := Ideal) b := by
  after_results_simp
  rw [hb]
  simp only [Cert.ReferenceIdeal.Read.val_main_v46]
  exact Cert.LibRowVector.shapeCast_row_eq_broadcastInDim b _ _

end Stretch

/-! ## The layer's output against the reference's stages -/

section Layer
variable (x0 : (⟨Cert.ReferenceIdeal.S100000x128, .f32⟩ : BufTy).Contents (Elt Ideal))
variable (x1 : (⟨Cert.ReferenceIdeal.S2x640000, .i32⟩ : BufTy).Contents (Elt Ideal))
variable (x2 : (⟨Cert.ReferenceIdeal.S640000x1, .f32⟩ : BufTy).Contents (Elt Ideal))
variable (x4 x5 : (⟨Cert.ReferenceIdeal.S128x128, .f32⟩ : BufTy).Contents (Elt Ideal))
variable (x6 : (⟨Cert.ReferenceIdeal.S128, .f32⟩ : BufTy).Contents (Elt Ideal))

/-- The reference clamps the first layer's output at zero twice; once is the same array. -/
theorem clamp_twice :
    Cert.ReferenceIdeal.Read.val_main_v50 (F := Ideal) x0 x1 x2 x4 x5 x6 = Cert.ReferenceIdeal.Read.val_main_v49 (F := Ideal) x0 x1 x2 x4 x5 x6 := by
  simp only [Cert.ReferenceIdeal.Read.val_main_v50, Cert.ReferenceIdeal.Read.val_main_v49, Cert.ReferenceIdeal.Read.val_main_call1_cst, Cert.ReferenceIdeal.Read.val_main_call1_v0, Cert.ReferenceIdeal.Read.val_main_call2_cst, Cert.ReferenceIdeal.Read.val_main_call2_v0]
  exact Cert.LibRowVector.maximumf_maximumf_self _ _

/-- The first layer's output array is the reference's twice-clamped stage. -/
theorem layer1_eq :
    Cert.Spec.layerOut (F := Ideal) (Cert.ReferenceIdeal.Read.val_main_v43 (F := Ideal) x0 x1 x2 x4) (Cert.Spec.nodeDot (F := Ideal) x0 x5)
        (Cert.ReferenceIdeal.Read.val_main_v46 (F := Ideal) x6)
      = Cert.ReferenceIdeal.Read.val_main_v50 (F := Ideal) x0 x1 x2 x4 x5 x6 := by
  rw [clamp_twice]
  simp only [Cert.ReferenceIdeal.Read.val_main_v49, Cert.ReferenceIdeal.Read.val_main_v48, Cert.ReferenceIdeal.Read.val_main_v47, Cert.ReferenceIdeal.Read.val_main_v45, Cert.ReferenceIdeal.Read.val_main_v44, Cert.ReferenceIdeal.Read.val_main_call1_cst, Cert.ReferenceIdeal.Read.val_main_call1_v0, Cert.Spec.layerOut, Cert.Spec.nodeDot]

end Layer

variable (m : (ℓ : Loc nD τ sig) → Buf (Elt Ideal) ℓ) (ρ : Dev nD → PrngReg)

/-! ## At region 0's exit -/

theorem exit0_norm (c : Dev nD) :
    W4 m ρ c (Proc.devRef .tc main_v29) = Cert.ReferenceIdeal.Read.val_main_v29 (F := Ideal) (edges m c) (weights m c) :=
  (W4_of_ne m ρ c main_v29 (by decide)).trans (entry0_norm m ρ c)
theorem exit0_row (c : Dev nD) :
    W4 m ρ c (Proc.devRef .tc main_v1) = Cert.ReferenceIdeal.Read.val_main_v1 (F := Ideal) (edges m c) :=
  (W4_of_ne m ρ c main_v1 (by decide)).trans (entry0_row m ρ c)
theorem exit0_col (c : Dev nD) :
    W4 m ρ c (Proc.devRef .tc main_v3) = Cert.ReferenceIdeal.Read.val_main_v3 (F := Ideal) (edges m c) :=
  (W4_of_ne m ρ c main_v3 (by decide)).trans (entry0_col m ρ c)
theorem exit0_b1 (c : Dev nD) : W4 m ρ c (Proc.devRef .tc main_arg6) = b1 m c :=
  (W4_of_ne m ρ c main_arg6 (by decide)).trans (by as_launched)

/-- `x · Wi1` after region 0. -/
theorem exit0_dotI (c : Dev nD) :
    W4 m ρ c (Proc.devRef .tc main_v30_0) = Cert.Spec.nodeDot (F := Ideal) (x m c) (Wi1 m c) := by
  refine (W4_arr m ρ c 3).trans ((RegionValue0.region0_out3 (V3 m ρ) c).trans ?_)
  have hx : V3 m ρ c main_arg0 = x m c := entry0_x m ρ c
  have hW : V3 m ρ c main_arg4 = Wi1 m c := by as_launched
  rw [hx, hW]
/-- `x · Wr1` after region 0. -/
theorem exit0_dotR (c : Dev nD) :
    W4 m ρ c (Proc.devRef .tc main_v30_1) = Cert.Spec.nodeDot (F := Ideal) (x m c) (Wr1 m c) := by
  refine (W4_arr m ρ c 4).trans ((RegionValue0.region0_out4 (V3 m ρ) c).trans ?_)
  have hx : V3 m ρ c main_arg0 = x m c := entry0_x m ρ c
  have hW : V3 m ρ c main_arg5 = Wr1 m c := by as_launched
  rw [hx, hW]

/-! ## At region 1's entry and exit -/

theorem entry1_agg (c : Dev nD) :
    W5 m ρ c (Proc.devRef .tc main_v43) = Cert.ReferenceIdeal.Read.val_main_v43 (F := Ideal) (x m c) (edges m c) (weights m c) (Wi1 m c) :=
  stretch1_agg (W4 m ρ c) _ _ _ _ (exit0_norm m ρ c) (exit0_row m ρ c) (exit0_col m ρ c) (exit0_dotI m ρ c)
theorem entry1_bias (c : Dev nD) :
    W5 m ρ c (Proc.devRef .tc main_v44) = Cert.ReferenceIdeal.Read.val_main_v46 (F := Ideal) (b1 m c) :=
  stretch1_bias (W4 m ρ c) _ (exit0_b1 m ρ c)
theorem entry1_root (c : Dev nD) :
    W5 m ρ c (Proc.devRef .tc main_v30_1) = Cert.Spec.nodeDot (F := Ideal) (x m c) (Wr1 m c) :=
  Eq.trans (by kept_through hostOps1) (exit0_dotR m ρ c)

/-- The first layer's output after region 1. -/
theorem exit1_h (c : Dev nD) :
    W6 m ρ c (Proc.devRef .tc main_v45)
      = Cert.ReferenceIdeal.Read.val_main_v50 (F := Ideal) (x m c) (edges m c) (weights m c) (Wi1 m c) (Wr1 m c) (b1 m c) := by
  refine (W6_arr m ρ c 3).trans ((RegionValue1.region1_out3 (V5 m ρ) c).trans ?_)
  have ha : V5 m ρ c main_v43 = Cert.ReferenceIdeal.Read.val_main_v43 (F := Ideal) (x m c) (edges m c) (weights m c) (Wi1 m c) := entry1_agg m ρ c
  have hr : V5 m ρ c main_v30_1 = Cert.Spec.nodeDot (F := Ideal) (x m c) (Wr1 m c) := entry1_root m ρ c
  have hb : V5 m ρ c main_v44 = Cert.ReferenceIdeal.Read.val_main_v46 (F := Ideal) (b1 m c) := entry1_bias m ρ c
  rw [ha, hr, hb]
  exact layer1_eq _ _ _ _ _ _

/-- What the second aggregation stretch still needs from before: carried across region 0's exit, the first
    aggregation stretch and region 1. -/
theorem exit1_norm (c : Dev nD) :
    W6 m ρ c (Proc.devRef .tc main_v29) = Cert.ReferenceIdeal.Read.val_main_v29 (F := Ideal) (edges m c) (weights m c) :=
  (W6_of_ne m ρ c main_v29 (by decide)).trans (Eq.trans (by kept_through hostOps1) (exit0_norm m ρ c))
theorem exit1_row (c : Dev nD) :
    W6 m ρ c (Proc.devRef .tc main_v1) = Cert.ReferenceIdeal.Read.val_main_v1 (F := Ideal) (edges m c) :=
  (W6_of_ne m ρ c main_v1 (by decide)).trans (Eq.trans (by kept_through hostOps1) (exit0_row m ρ c))
theorem exit1_col (c : Dev nD) :
    W6 m ρ c (Proc.devRef .tc main_v3) = Cert.ReferenceIdeal.Read.val_main_v3 (F := Ideal) (edges m c) :=
  (W6_of_ne m ρ c main_v3 (by decide)).trans (Eq.trans (by kept_through hostOps1) (exit0_col m ρ c))

/-- An argument no segment up to region 1's exit writes is as launched there. -/
macro "as_launched_at_exit1" : tactic => `(tactic| (
  refine Eq.trans (W6_of_ne _ _ _ _ (by decide)) ?_
  refine Eq.trans (by kept_through hostOps1) ?_
  refine Eq.trans (W4_of_ne _ _ _ _ (by decide)) ?_
  as_launched))

theorem exit1_Wi2 (c : Dev nD) : W6 m ρ c (Proc.devRef .tc main_arg7) = Wi2 m c := by as_launched_at_exit1
theorem exit1_Wr2 (c : Dev nD) : W6 m ρ c (Proc.devRef .tc main_arg8) = Wr2 m c := by as_launched_at_exit1
theorem exit1_b2 (c : Dev nD) : W6 m ρ c (Proc.devRef .tc main_arg9) = b2 m c := by as_launched_at_exit1
theorem exit1_graphOf (c : Dev nD) : W6 m ρ c (Proc.devRef .tc main_arg3) = graphOf m c := by as_launched_at_exit1
theorem exit1_mW1 (c : Dev nD) : W6 m ρ c (Proc.devRef .tc main_arg10) = mW1 m c := by as_launched_at_exit1
theorem exit1_mb1 (c : Dev nD) : W6 m ρ c (Proc.devRef .tc main_arg11) = mb1 m c := by as_launched_at_exit1
theorem exit1_mW2 (c : Dev nD) : W6 m ρ c (Proc.devRef .tc main_arg12) = mW2 m c := by as_launched_at_exit1
theorem exit1_mb2 (c : Dev nD) : W6 m ρ c (Proc.devRef .tc main_arg13) = mb2 m c := by as_launched_at_exit1

end Cert.KernelIdeal.Walk

end
-- ==== Proof.Region2.lean ====
/-
  Region 2: the two node-wise products of the second layer, `h1 · Wi2` and `h1 · Wr2`, computed twenty rows-blocks at a
  time. Point `t` of the grid holds rows `5000 t … 5000 t + 4999` of the node array; each output row is the sum over
  the 128 features of that row's entries against a weight column, so a block of the product depends only on the same
  block of rows, and the twenty blocks tile the [100000, 128] output. At the extended reals the change of float format
  before the product is the identity and the product into a zero accumulator is that plain sum, which is what the
  whole-array product `Cert.Spec.nodeDot` reads at the same index.
-/
import proofs.«405618_j49297634623854_2_alg».proof.Proof.Gen.KernelIdeal.Frame
import proofs.«405618_j49297634623854_2_alg».proof.Proof.Gen.ReferenceIdeal.Read
import proofs.«405618_j49297634623854_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.RegionValue2

open Idealize.ShloMosaic Idealize.ShloMosaic.TcCoe Idealize.SL.Sem
open Cert.KernelIdeal Cert.KernelIdeal.Gen

/-! ## A block's product at an index -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of a block, feature `k`. -/
abbrev rowFeat (i : S5000x128.Idx) (k : Fin 128) : S5000x128.Idx := fun a => match a with
  | ⟨0, _⟩ => ⟨(i 0).val, (i 0).isLt⟩
  | ⟨1, _⟩ => ⟨k.val, k.isLt⟩
/-- Feature `k` of the weight, output column `i 1`. -/
abbrev featCol (i : S5000x128.Idx) (k : Fin 128) : S128x128.Idx := fun a => match a with
  | ⟨0, _⟩ => ⟨k.val, k.isLt⟩
  | ⟨1, _⟩ => ⟨(i 1).val, (i 1).isLt⟩

/-- A block of rows times a weight, into a zero accumulator, at the extended reals: entry `(r, q)` is the sum over the
    features `k` of the block's `(r, k)` against the weight's `(k, q)`. -/
theorem tile_matmul_apply (xb : FVec Ideal S5000x128 .bf16) (w : FVec Ideal S128x128 .bf16) (i : S5000x128.Idx) :
    matmul dot_S5000x128_S128x128_S5000x128_1_0_0_1_n_n none xb w (constant S5000x128 .f32 0x00000000#32) i
      = ∑ k : Fin 128, xb (rowFeat i k) * w (featCol i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowFeat i k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx i ((ValueIdx.contrEquiv1 dot_S5000x128_S128x128_S5000x128_1_0_0_1_n_n 128 rfl rfl).symm k) = featCol i k := funext fun a => Fin.ext (by
    match a with
    | ⟨0, _⟩ => exact (rhs_tile_0 _ _).trans hk
    | ⟨1, _⟩ => exact rhs_tile_1 _ _)
  rw [el, er]

/-- The body's first product of its loaded blocks, at an index. -/
theorem pay2_apply (xb : Vec Ideal S5000x128 .f32) (w : Vec Ideal S128x128 .f32) (i : S5000x128.Idx) :
    k2_pay2 (F := Ideal) xb w i = ∑ k : Fin 128, xb (rowFeat i k) * w (featCol i k) := by
  unfold k2_pay2 k2_pay1
  rw [shapeCast_self]
  exact tile_matmul_apply _ _ i
/-- The body's second product, at an index. -/
theorem pay3_apply (xb : Vec Ideal S5000x128 .f32) (w : Vec Ideal S128x128 .f32) (i : S5000x128.Idx) :
    k2_pay3 (F := Ideal) xb w i = ∑ k : Fin 128, xb (rowFeat i k) * w (featCol i k) := by
  unfold k2_pay3 k2_pay1
  rw [shapeCast_self]
  exact tile_matmul_apply _ _ i

/-! ## From blocks to the arrays -/

-- the region-entry contents: a parameter, as in the generated frame
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the twenty points: the row windows sit at block `t` of the rows and block `0` of the
    features, the weights at their one block. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK through window 3 is block `t` of `x · Wi`. -/
theorem flushed3_eq (c : Dev nD) (t : Fin cfg2.N) :
    (dat2 V c).flushed 3 t
      = ((cfg2.win 3).blk t).view.read (Elt Ideal) (Cert.Spec.nodeDot (F := Ideal) (V c main_v45) (V c main_arg7)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets]
  obtain ⟨e00, e01, e10, e11, e20, e21, e30, e31, e40, e41⟩ := index_maps t
  funext j
  show k2_pay2 (F := Ideal) (iblk2 V c 0 t) (iblk2 V c 1 t) j
    = Cert.ReferenceIdeal.Read.val_main_v30 (F := Ideal) (V c main_v45) (V c main_arg7) (((cfg2.win 3).blk t).view.emb j)
  rw [pay2_apply, Cert.ReferenceIdeal.Read.val_main_v30_apply]
  refine Finset.sum_congr rfl fun k _ => ?_
  have h0 : ((cfg2.win 0).blk t).view.emb (rowFeat j k) = Cert.ReferenceIdeal.Read.lidx_main_v30 (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (featCol j k) = Cert.ReferenceIdeal.Read.ridx_main_v30 (((cfg2.win 3).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  have hx : iblk2 V c 0 t (rowFeat j k) = V c main_v45 (Cert.ReferenceIdeal.Read.lidx_main_v30 (((cfg2.win 3).blk t).view.emb j) k) := by
    show V c main_v45 (((cfg2.win 0).blk t).view.emb (rowFeat j k)) = _
    rw [h0]
  have hw : iblk2 V c 1 t (featCol j k) = V c main_arg7 (Cert.ReferenceIdeal.Read.ridx_main_v30 (((cfg2.win 3).blk t).view.emb j) k) := by
    show V c main_arg7 (((cfg2.win 1).blk t).view.emb (featCol j k)) = _
    rw [h1]
  rw [hx, hw]

/-- WHAT POINT `t` WRITES BACK through window 4 is block `t` of `x · Wr`. -/
theorem flushed4_eq (c : Dev nD) (t : Fin cfg2.N) :
    (dat2 V c).flushed 4 t
      = ((cfg2.win 4).blk t).view.read (Elt Ideal) (Cert.Spec.nodeDot (F := Ideal) (V c main_v45) (V c main_arg8)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S128x128) zero_offsets]
  obtain ⟨e00, e01, e10, e11, e20, e21, e30, e31, e40, e41⟩ := index_maps t
  funext j
  show k2_pay3 (F := Ideal) (iblk2 V c 0 t) (iblk2 V c 2 t) j
    = Cert.ReferenceIdeal.Read.val_main_v30 (F := Ideal) (V c main_v45) (V c main_arg8) (((cfg2.win 4).blk t).view.emb j)
  rw [pay3_apply, Cert.ReferenceIdeal.Read.val_main_v30_apply]
  refine Finset.sum_congr rfl fun k _ => ?_
  have h0 : ((cfg2.win 0).blk t).view.emb (rowFeat j k) = Cert.ReferenceIdeal.Read.lidx_main_v30 (((cfg2.win 4).blk t).view.emb j) k := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have h1 : ((cfg2.win 2).blk t).view.emb (featCol j k) = Cert.ReferenceIdeal.Read.ridx_main_v30 (((cfg2.win 4).blk t).view.emb j) k := by
    funext a; apply Fin.ext
    match a with
    | ⟨0, _⟩ => show win2_2.index t (0 : Fin 2) * 128 + 1 * k.val = k.val; omega
    | ⟨1, _⟩ => show win2_2.index t (1 : Fin 2) * 128 + 1 * (j 1).val = win2_4.index t (1 : Fin 2) * 128 + 1 * (j 1).val; omega
  have hx : iblk2 V c 0 t (rowFeat j k) = V c main_v45 (Cert.ReferenceIdeal.Read.lidx_main_v30 (((cfg2.win 4).blk t).view.emb j) k) := by
    show V c main_v45 (((cfg2.win 0).blk t).view.emb (rowFeat j k)) = _
    rw [h0]
  have hw : iblk2 V c 2 t (featCol j k) = V c main_arg8 (Cert.ReferenceIdeal.Read.ridx_main_v30 (((cfg2.win 4).blk t).view.emb j) k) := by
    show V c main_arg8 (((cfg2.win 2).blk t).view.emb (featCol j k)) = _
    rw [h1]
  rw [hx, hw]

/-- An index of the output array is in point `t`'s block of window 3 iff each coordinate is in the block's range. -/
theorem mem_blk3 (t : Fin cfg2.N) (i : Cert.ReferenceIdeal.S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v46_0).slice (win2_3.rect t)).set ↔ _
  rw [View.set_slice_whole, Rect.mem_set_unit]
  exact Iff.rfl
theorem mem_blk4 (t : Fin cfg2.N) (i : Cert.ReferenceIdeal.S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v46_1).slice (win2_4.rect t)).set ↔ _
  rw [View.set_slice_whole, Rect.mem_set_unit]
  exact Iff.rfl

/-- Row `r` lies in the block of point `r / 5000`. -/
theorem cover3 (i : Cert.ReferenceIdeal.S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e00, e01, e10, e11, e20, e21, e30, e31, e40, e41⟩ := index_maps t
  have ht : t.val = (i 0).val / 5000 := rfl
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega
theorem cover4 (i : Cert.ReferenceIdeal.S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e00, e01, e10, e11, e20, e21, e30, e31, e40, e41⟩ := index_maps t
  have ht : t.val = (i 0).val / 5000 := rfl
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- After the region the first output array is `x · Wi`. -/
theorem region2_out3 (c : Dev nD) :
    (dat2 V c).arrAt 3 cfg2.N = Cert.Spec.nodeDot (F := Ideal) (V c main_v45) (V c main_arg7) :=
  (dat2 V c).arrAt_eq_of_cover 3 _ (fun t _ => flushed3_eq V c t) cover3
/-- After the region the second output array is `x · Wr`. -/
theorem region2_out4 (c : Dev nD) :
    (dat2 V c).arrAt 4 cfg2.N = Cert.Spec.nodeDot (F := Ideal) (V c main_v45) (V c main_arg8) :=
  (dat2 V c).arrAt_eq_of_cover 4 _ (fun t _ => flushed4_eq V c t) cover4

end Cert.KernelIdeal.RegionValue2

end
-- ==== Proof.Region3.lean ====
/-
  The bias-and-clamp layer, block by block and then as one array. Each grid point `t` holds rows
  `5000 t … 5000 t + 4999` of the aggregated messages and of the root term, and the one bias row; entry `(r, q)` of
  what it writes back is `max (agg (5000 t + r, q) + root (5000 t + r, q) + bias (0, q), 0)`. That is row `5000 t + r`
  of the whole-array function `Cert.Spec.layerOut`, and the blocks of the grid's points tile the rows, so the output
  array ends holding `layerOut` of the three input arrays.
-/
import proofs.«405618_j49297634623854_2_alg».proof.Proof.Gen.KernelIdeal.Frame
import proofs.«405618_j49297634623854_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue3

open Idealize.ShloMosaic Idealize.ShloMosaic.TcCoe Idealize.SL.Sem Cert.KernelIdeal Cert.KernelIdeal.Gen

/-- The zero offsets of a rectangle that is a whole buffer, as the constant function. -/
theorem hz : (![0, 0] : Fin 2 → Nat) = fun _ => 0 := funext fun a => by fin_cases a <;> rfl

/-- The block index of each window at every grid point: the two row-blocked inputs and the output are at block
    `(t, 0)`, the bias row at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## The body's payload and the whole-array function, each at an index -/

/-- The bias row's index under a block's index `(r, q)`: `(0, q)`. -/
abbrev rowOfBlk (j : S5000x128.Idx) : S1x128.Idx := fun a => match a with
  | ⟨0, _⟩ => ⟨0, Nat.one_pos⟩
  | ⟨1, _⟩ => ⟨(j 1).val, (j 1).isLt⟩

/-- The payload at `(r, q)`: the two blocks added there, plus the bias row at `(0, q)`, clamped below at zero. -/
theorem pay_apply (x0 x1 : Vec Ideal S5000x128 .f32) (x2 : Vec Ideal S1x128 .f32) (j : S5000x128.Idx) :
    k3_pay1 (F := Ideal) x0 x1 x2 j = max (x0 j + x1 j + x2 (rowOfBlk j)) 0 := by
  unfold k3_pay1
  simp only [shapeCast_self]
  rw [ValueIdx.maximumf_apply, ValueIdx.addf_apply, ValueIdx.addf_apply, ValueIdx.broadcast_apply]
  rw [broadcastTo_apply x2 broadcasts_S1x128_S5000x128 j (rowOfBlk j) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  show max _ (Ideal.ofBits .f32 0x00000000#32) = _
  rw [Ideal.ofBits_zero_f32]

/-- The bias row's index under an array index `(n, q)`: `(0, q)`. -/
abbrev rowOfArr (i : S100000x128.Idx) : S1x128.Idx := fun a => match a with
  | ⟨0, _⟩ => ⟨0, Nat.one_pos⟩
  | ⟨1, _⟩ => ⟨(i 1).val, (i 1).isLt⟩

/-- The whole-array function at `(n, q)`: the same sum of the two arrays there and the bias row at `(0, q)`, clamped
    below at zero. -/
theorem layerOut_apply (agg r : (⟨S100000x128, .f32⟩ : BufTy).Contents (Elt Ideal)) (b : (⟨S1x128, .f32⟩ : BufTy).Contents (Elt Ideal))
    (i : S100000x128.Idx) :
    Cert.Spec.layerOut (F := Ideal) agg r b i = max (agg i + r i + b (rowOfArr i)) 0 := by
  unfold Cert.Spec.layerOut
  rw [ValueIdx.maximumf_apply, ValueIdx.addf_apply, ValueIdx.addf_apply]
  rw [broadcastInDim_apply _ Cert.ReferenceIdeal.Facts₀.bcast_S1x128_S100000x128_0_1 b i (rowOfArr i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ Cert.ReferenceIdeal.Facts₀.bcast_S_S100000x128 (constant (F := Ideal) Cert.ReferenceIdeal.S_ .f32 0x00000000#32) i (fun a => a.elim0) (fun a => a.elim0)]
  rw [ValueIdx.constant_apply, Ideal.ofBits_zero_f32]

/-! ## What a point writes back, and the array the blocks tile -/

/-- What point `t` writes back is block `t` of the whole-array function of the input arrays: entry `(r, q)` of the
    block is array entry `(5000 t + r, q)`, where both input blocks read their arrays, and the bias block is the bias
    array's one row. -/
theorem flushed_eq (V : (c : Dev nD) → (b : Ref sig .tc) → Buf (Elt Ideal) ((c : Thread nD τ).loc b)) (c : Dev nD) (t : Fin cfg3.N) :
    (dat3 V c).flushed 3 t = ((cfg3.win 3).blk t).view.read (Elt Ideal)
      (Cert.Spec.layerOut (F := Ideal) (V c main_v59) (V c main_v46_1) (V c main_v60)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e00, e01, e10, e11, e20, e21, e30, e31⟩ := idx_facts t
  funext j
  show k3_pay1 (F := Ideal) (iblk3 V c 0 t) (iblk3 V c 1 t) (iblk3 V c 2 t) j
    = Cert.Spec.layerOut (F := Ideal) (V c main_v59) (V c main_v46_1) (V c main_v60) (((cfg3.win 3).blk t).view.emb j)
  rw [pay_apply, layerOut_apply]
  -- a block's coordinate in its array is (block index) × (block size) + the coordinate inside the block
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb (rowOfBlk j) = rowOfArr (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  refine congrArg₂ max (congrArg₂ (· + ·) (congrArg₂ (· + ·) ?_ ?_) ?_) rfl
  · exact congrArg (V c main_v59) h0
  · exact congrArg (V c main_v46_1) h1
  · exact congrArg (V c main_v60) h2

/-- An index of the output array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v61).slice (win3_3.rect t)).set ↔ _
  rw [View.set_slice_whole, Rect.mem_set_unit]
  exact Iff.rfl

/-- The blocks tile the array: row `n` is in the block of point `n / 5000`, and every block spans all the columns. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hq : (i 0).val / 5000 < cfg3.N := by show (i 0).val / 5000 < 20; omega
  obtain ⟨e00, e01, e10, e11, e20, e21, e30, e31⟩ := idx_facts ⟨(i 0).val / 5000, hq⟩
  refine ⟨⟨(i 0).val / 5000, hq⟩, flush3_3 _, ?_⟩
  rw [mem_blk]
  intro a
  match a with
  | ⟨0, _⟩ =>
    show win3_3.index ⟨(i 0).val / 5000, hq⟩ (0 : Fin 2) * 5000 ≤ (i 0).val
      ∧ (i 0).val < win3_3.index ⟨(i 0).val / 5000, hq⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, hq⟩ (1 : Fin 2) * 128 ≤ (i 1).val
      ∧ (i 1).val < win3_3.index ⟨(i 0).val / 5000, hq⟩ (1 : Fin 2) * 128 + 128
    rw [e31]; omega

variable (V : (c : Dev nD) → (b : Ref sig .tc) → Buf (Elt Ideal) ((c : Thread nD τ).loc b))

/-- After the region the output array is the layer's whole-array function of the three input arrays as the region
    found them: every point writes back its block of that function, and the blocks cover the array. -/
theorem region3_out3 (c : Dev nD) :
    (dat3 V c).arrAt 3 cfg3.N = Cert.Spec.layerOut (F := Ideal) (V c main_v59) (V c main_v46_1) (V c main_v60) :=
  (dat3 V c).arrAt_eq_of_cover 3 _ (fun t _ => flushed_eq V c t) cover

end Cert.KernelIdeal.RegionValue3

end
-- ==== Proof.Walk2.lean ====
/-
  The second layer. Region 2 leaves the two node-wise products of the first layer's output with the second layer's
  weights; the host stretch after it aggregates the first product over the edges exactly as the first layer's stretch
  did, and makes the second bias a one-row matrix; region 3 leaves `max (agg + h1 · Wr2 + b2, 0)`, the node
  embedding, which is the reference's stage of the same arguments.
-/
import proofs.«405618_j49297634623854_2_alg».proof.Proof.Walk1
import proofs.«405618_j49297634623854_2_alg».proof.Proof.Region2
import proofs.«405618_j49297634623854_2_alg».proof.Proof.Region3
import proofs.«405618_j49297634623854_2_alg».proof.Proof.Spec
import proofs.«405618_j49297634623854_2_alg».proof.Proof.LibRowVector

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-! ## The second aggregation stretch, over any contents it starts from -/

section Stretch
variable (Vv : Valuation τ sig (Elt Ideal))
variable (x0 : (⟨Cert.ReferenceIdeal.S100000x128, .f32⟩ : BufTy).Contents (Elt Ideal))
variable (x1 : (⟨Cert.ReferenceIdeal.S2x640000, .i32⟩ : BufTy).Contents (Elt Ideal))
variable (x2 : (⟨Cert.ReferenceIdeal.S640000x1, .f32⟩ : BufTy).Contents (Elt Ideal))
variable (x4 x5 : (⟨Cert.ReferenceIdeal.S128x128, .f32⟩ : BufTy).Contents (Elt Ideal))
variable (x6 : (⟨Cert.ReferenceIdeal.S128, .f32⟩ : BufTy).Contents (Elt Ideal))
variable (x7 x8 : (⟨Cert.ReferenceIdeal.S128x128, .f32⟩ : BufTy).Contents (Elt Ideal))
variable (x9 : (⟨Cert.ReferenceIdeal.S128, .f32⟩ : BufTy).Contents (Elt Ideal))

/-- The aggregated messages of the second layer: over the edges, `norm × (h1 · Wi2)[row]` added up at `col`. -/
theorem stretch3_agg (h29 : Vv (Proc.devRef .tc main_v29) = Cert.ReferenceIdeal.Read.val_main_v29 (F := Ideal) x1 x2)
    (h1 : Vv (Proc.devRef .tc main_v1) = Cert.ReferenceIdeal.Read.val_main_v1 (F := Ideal) x1)
    (h3 : Vv (Proc.devRef .tc main_v3) = Cert.ReferenceIdeal.Read.val_main_v3 (F := Ideal) x1)
    (hd : Vv (Proc.devRef .tc main_v46_0)
      = Cert.Spec.nodeDot (F := Ideal) (Cert.ReferenceIdeal.Read.val_main_v50 (F := Ideal) x0 x1 x2 x4 x5 x6) x7) :
    StableHlo.after hostOps3 Vv (Proc.devRef .tc main_v59) = Cert.ReferenceIdeal.Read.val_main_v64 (F := Ideal) x0 x1 x2 x4 x5 x6 x7 := by
  after_results_simp
  rw [h29, h1, h3, hd]
  simp only [Cert.ReferenceIdeal.Read.val_main_v51, Cert.ReferenceIdeal.Read.val_main_v52, Cert.ReferenceIdeal.Read.val_main_c_9, Cert.ReferenceIdeal.Read.val_main_v53, Cert.ReferenceIdeal.Read.val_main_v54, Cert.ReferenceIdeal.Read.val_main_c_10, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_cst_11, Cert.ReferenceIdeal.Read.val_main_v62, Cert.ReferenceIdeal.Read.val_main_v63, Cert.ReferenceIdeal.Read.val_main_v64, Cert.Spec.nodeDot]
  rfl

/-- The second bias as one row. -/
theorem stretch3_bias (hb : Vv (Proc.devRef .tc main_arg9) = x9) :
    StableHlo.after hostOps3 Vv (Proc.devRef .tc main_v60) = Cert.ReferenceIdeal.Read.val_main_v67 (F := Ideal) x9 := by
  after_results_simp
  rw [hb]
  simp only [Cert.ReferenceIdeal.Read.val_main_v67]
  exact Cert.LibRowVector.shapeCast_row_eq_broadcastInDim x9 _ _

end Stretch

section Layer
variable (x0 : (⟨Cert.ReferenceIdeal.S100000x128, .f32⟩ : BufTy).Contents (Elt Ideal))
variable (x1 : (⟨Cert.ReferenceIdeal.S2x640000, .i32⟩ : BufTy).Contents (Elt Ideal))
variable (x2 : (⟨Cert.ReferenceIdeal.S640000x1, .f32⟩ : BufTy).Contents (Elt Ideal))
variable (x4 x5 : (⟨Cert.ReferenceIdeal.S128x128, .f32⟩ : BufTy).Contents (Elt Ideal))
variable (x6 : (⟨Cert.ReferenceIdeal.S128, .f32⟩ : BufTy).Contents (Elt Ideal))
variable (x7 x8 : (⟨Cert.ReferenceIdeal.S128x128, .f32⟩ : BufTy).Contents (Elt Ideal))
variable (x9 : (⟨Cert.ReferenceIdeal.S128, .f32⟩ : BufTy).Contents (Elt Ideal))

/-- The second layer's output array is the reference's node embedding. -/
theorem layer2_eq :
    Cert.Spec.layerOut (F := Ideal) (Cert.ReferenceIdeal.Read.val_main_v64 (F := Ideal) x0 x1 x2 x4 x5 x6 x7)
        (Cert.Spec.nodeDot (F := Ideal) (Cert.ReferenceIdeal.Read.val_main_v50 (F := Ideal) x0 x1 x2 x4 x5 x6) x8) (Cert.ReferenceIdeal.Read.val_main_v67 (F := Ideal) x9)
      = Cert.ReferenceIdeal.Read.val_main_v70 (F := Ideal) x0 x1 x2 x4 x5 x6 x7 x8 x9 := by
  simp only [Cert.ReferenceIdeal.Read.val_main_v70, Cert.ReferenceIdeal.Read.val_main_v69, Cert.ReferenceIdeal.Read.val_main_v68, Cert.ReferenceIdeal.Read.val_main_v66, Cert.ReferenceIdeal.Read.val_main_v65, Cert.ReferenceIdeal.Read.val_main_call3_cst, Cert.ReferenceIdeal.Read.val_main_call3_v0, Cert.Spec.layerOut, Cert.Spec.nodeDot]

end Layer

variable (m : (ℓ : Loc nD τ sig) → Buf (Elt Ideal) ℓ) (ρ : Dev nD → PrngReg)

/-- The first layer's output, as the reference's stage of the launched arguments. -/
abbrev h1Of (c : Dev nD) : (⟨Cert.ReferenceIdeal.S100000x128, .f32⟩ : BufTy).Contents (Elt Ideal) :=
  Cert.ReferenceIdeal.Read.val_main_v50 (F := Ideal) (x m c) (edges m c) (weights m c) (Wi1 m c) (Wr1 m c) (b1 m c)

/-! ## At region 2's exit -/

/-- `h1 · Wi2` after region 2. -/
theorem exit2_dotI (c : Dev nD) :
    W7 m ρ c (Proc.devRef .tc main_v46_0) = Cert.Spec.nodeDot (F := Ideal) (h1Of m c) (Wi2 m c) := by
  refine (W7_arr m ρ c 3).trans ((RegionValue2.region2_out3 (V6 m ρ) c).trans ?_)
  have hh : V6 m ρ c main_v45 = h1Of m c := exit1_h m ρ c
  have hW : V6 m ρ c main_arg7 = Wi2 m c := exit1_Wi2 m ρ c
  rw [hh, hW]
/-- `h1 · Wr2` after region 2. -/
theorem exit2_dotR (c : Dev nD) :
    W7 m ρ c (Proc.devRef .tc main_v46_1) = Cert.Spec.nodeDot (F := Ideal) (h1Of m c) (Wr2 m c) := by
  refine (W7_arr m ρ c 4).trans ((RegionValue2.region2_out4 (V6 m ρ) c).trans ?_)
  have hh : V6 m ρ c main_v45 = h1Of m c := exit1_h m ρ c
  have hW : V6 m ρ c main_arg8 = Wr2 m c := exit1_Wr2 m ρ c
  rw [hh, hW]

theorem exit2_norm (c : Dev nD) :
    W7 m ρ c (Proc.devRef .tc main_v29) = Cert.ReferenceIdeal.Read.val_main_v29 (F := Ideal) (edges m c) (weights m c) :=
  (W7_of_ne m ρ c main_v29 (by decide)).trans (exit1_norm m ρ c)
theorem exit2_row (c : Dev nD) :
    W7 m ρ c (Proc.devRef .tc main_v1) = Cert.ReferenceIdeal.Read.val_main_v1 (F := Ideal) (edges m c) :=
  (W7_of_ne m ρ c main_v1 (by decide)).trans (exit1_row m ρ c)
theorem exit2_col (c : Dev nD) :
    W7 m ρ c (Proc.devRef .tc main_v3) = Cert.ReferenceIdeal.Read.val_main_v3 (F := Ideal) (edges m c) :=
  (W7_of_ne m ρ c main_v3 (by decide)).trans (exit1_col m ρ c)
theorem exit2_b2 (c : Dev nD) : W7 m ρ c (Proc.devRef .tc main_arg9) = b2 m c :=
  (W7_of_ne m ρ c main_arg9 (by decide)).trans (exit1_b2 m ρ c)

/-! ## At region 3's entry and exit -/

theorem entry3_agg (c : Dev nD) :
    W8 m ρ c (Proc.devRef .tc main_v59)
      = Cert.ReferenceIdeal.Read.val_main_v64 (F := Ideal) (x m c) (edges m c) (weights m c) (Wi1 m c) (Wr1 m c) (b1 m c) (Wi2 m c) :=
  stretch3_agg (W7 m ρ c) _ _ _ _ _ _ _ (exit2_norm m ρ c) (exit2_row m ρ c) (exit2_col m ρ c) (exit2_dotI m ρ c)
theorem entry3_bias (c : Dev nD) :
    W8 m ρ c (Proc.devRef .tc main_v60) = Cert.ReferenceIdeal.Read.val_main_v67 (F := Ideal) (b2 m c) :=
  stretch3_bias (W7 m ρ c) _ (exit2_b2 m ρ c)
theorem entry3_root (c : Dev nD) :
    W8 m ρ c (Proc.devRef .tc main_v46_1) = Cert.Spec.nodeDot (F := Ideal) (h1Of m c) (Wr2 m c) :=
  Eq.trans (by kept_through hostOps3) (exit2_dotR m ρ c)

/-- The node embedding, as the reference's stage of the launched arguments. -/
abbrev nodeOf (c : Dev nD) : (⟨Cert.ReferenceIdeal.S100000x128, .f32⟩ : BufTy).Contents (Elt Ideal) :=
  Cert.ReferenceIdeal.Read.val_main_v70 (F := Ideal) (x m c) (edges m c) (weights m c) (Wi1 m c) (Wr1 m c) (b1 m c) (Wi2 m c) (Wr2 m c) (b2 m c)

/-- The node embedding after region 3. -/
theorem exit3_node (c : Dev nD) : W9 m ρ c (Proc.devRef .tc main_v61) = nodeOf m c := by
  refine (W9_arr m ρ c 3).trans ((RegionValue3.region3_out3 (V8 m ρ) c).trans ?_)
  have ha : V8 m ρ c main_v59 = Cert.ReferenceIdeal.Read.val_main_v64 (F := Ideal) (x m c) (edges m c) (weights m c) (Wi1 m c) (Wr1 m c) (b1 m c) (Wi2 m c) := entry3_agg m ρ c
  have hr : V8 m ρ c main_v46_1 = Cert.Spec.nodeDot (F := Ideal) (h1Of m c) (Wr2 m c) := entry3_root m ρ c
  have hb : V8 m ρ c main_v60 = Cert.ReferenceIdeal.Read.val_main_v67 (F := Ideal) (b2 m c) := entry3_bias m ρ c
  rw [ha, hr, hb]
  exact layer2_eq _ _ _ _ _ _ _ _ _

/-- A buffer that neither region 2, nor the second aggregation stretch, nor region 3 touches: from region 3's exit
    back to region 1's exit. -/
macro "back_to_exit1" : tactic => `(tactic| (
  refine Eq.trans (W9_of_ne _ _ _ _ (by decide)) ?_
  refine Eq.trans (by kept_through hostOps3) ?_
  refine Eq.trans (W7_of_ne _ _ _ _ (by decide)) ?_))

theorem exit3_graphOf (c : Dev nD) : W9 m ρ c (Proc.devRef .tc main_arg3) = graphOf m c := by
  back_to_exit1; exact exit1_graphOf m ρ c
theorem exit3_mW1 (c : Dev nD) : W9 m ρ c (Proc.devRef .tc main_arg10) = mW1 m c := by
  back_to_exit1; exact exit1_mW1 m ρ c
theorem exit3_mb1 (c : Dev nD) : W9 m ρ c (Proc.devRef .tc main_arg11) = mb1 m c := by
  back_to_exit1; exact exit1_mb1 m ρ c
theorem exit3_mW2 (c : Dev nD) : W9 m ρ c (Proc.devRef .tc main_arg12) = mW2 m c := by
  back_to_exit1; exact exit1_mW2 m ρ c
theorem exit3_mb2 (c : Dev nD) : W9 m ρ c (Proc.devRef .tc main_arg13) = mb2 m c := by
  back_to_exit1; exact exit1_mb2 m ρ c

end Cert.KernelIdeal.Walk

end
-- ==== Proof.Region4.lean ====
/-
  The head over the pooled graphs, as one whole-array function. The region's grid has one point and each of its six
  windows is as large as its array, so the body sees the five operands whole and stores the whole output. Its payload,
  at the extended reals where narrowing a float is the identity, is at entry `(g, q)`
  `Σ_j max (Σ_k x(g,k) · W₁(k,j) + b₁(0,j), 0) · W₂(j,q) + b₂(0,q)`: two products into zero accumulators, each bias a
  single row laid over the 512 graphs, the clamp a maximum with zero. The reference's head reads at the same entry as
  the same double sum through the host's products and broadcasts, so the two agree entry by entry, and the one block
  the point writes back covers the `[512, 2]` output.
-/
import proofs.«405618_j49297634623854_2_alg».proof.Proof.Gen.KernelIdeal.Frame
import proofs.«405618_j49297634623854_2_alg».proof.Proof.Gen.ReferenceIdeal.Read
import proofs.«405618_j49297634623854_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue4

open Idealize.ShloMosaic Idealize.ShloMosaic.TcCoe Idealize.SL.Sem Cert.KernelIdeal Cert.KernelIdeal.Gen

/-! ## Indices

Entry `(g, q)` of the head's output is `Σ_j max (Σ_k x(g,k) · W₁(k,j) + b₁(0,j), 0) · W₂(j,q) + b₂(0,q)`. The operand
indices that sum reads, written per coordinate over the literal shapes. -/

theorem hz : (![0, 0] : Fin 2 → Nat) = fun _ => 0 := funext fun a => by fin_cases a <;> rfl

/-- `(g, k)`: graph `g` of the hidden entry `i = (g, j)`, pooled feature `k`. -/
abbrev gk (i : S512x256.Idx) (k : Fin 128) : S512x128.Idx := fun a => match a with
  | ⟨0, _⟩ => ⟨(i 0).val, (i 0).isLt⟩
  | ⟨1, _⟩ => ⟨k.val, k.isLt⟩
/-- `(k, j)`: pooled feature `k`, hidden unit `j` of the hidden entry `i = (g, j)`. -/
abbrev kj (i : S512x256.Idx) (k : Fin 128) : S128x256.Idx := fun a => match a with
  | ⟨0, _⟩ => ⟨k.val, k.isLt⟩
  | ⟨1, _⟩ => ⟨(i 1).val, (i 1).isLt⟩
/-- `(0, j)`: the first bias row at hidden unit `j`. -/
abbrev oj (i : S512x256.Idx) : S1x256.Idx := fun a => match a with
  | ⟨0, _⟩ => ⟨0, Nat.one_pos⟩
  | ⟨1, _⟩ => ⟨(i 1).val, (i 1).isLt⟩
/-- `(g, j)`: graph `g` of the output entry `i = (g, q)`, hidden unit `j`. -/
abbrev gj (i : S512x2.Idx) (j : Fin 256) : S512x256.Idx := fun a => match a with
  | ⟨0, _⟩ => ⟨(i 0).val, (i 0).isLt⟩
  | ⟨1, _⟩ => ⟨j.val, j.isLt⟩
/-- `(j, q)`: hidden unit `j`, class `q` of the output entry `i = (g, q)`. -/
abbrev jq (i : S512x2.Idx) (j : Fin 256) : S256x2.Idx := fun a => match a with
  | ⟨0, _⟩ => ⟨j.val, j.isLt⟩
  | ⟨1, _⟩ => ⟨(i 1).val, (i 1).isLt⟩
/-- `(0, q)`: the second bias row at class `q`. -/
abbrev oq (i : S512x2.Idx) : S1x2.Idx := fun a => match a with
  | ⟨0, _⟩ => ⟨0, Nat.one_pos⟩
  | ⟨1, _⟩ => ⟨(i 1).val, (i 1).isLt⟩

/-! ## The kernel's two products: which operand entries a contraction index reads -/

theorem klhsA_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem klhsA_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem krhsA_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem krhsA_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

theorem klhsB_0 (i : S512x2.Idx) (q : dot_S512x256_S256x2_S512x2_1_0_0_1_n_n.contr.Idx) :
    (dot_S512x256_S256x2_S512x2_1_0_0_1_n_n.lhsIdx i q 0).val = (i 0).val := by
  unfold DotDims.lhsIdx
  rw [dif_neg (show ¬(0 : Fin S512x256.rank) ∈ dot_S512x256_S256x2_S512x2_1_0_0_1_n_n.lhsBatch by decide), dif_pos (show (0 : Fin S512x256.rank) ∈ dot_S512x256_S256x2_S512x2_1_0_0_1_n_n.lhsNonContracting by decide)]
  rfl
theorem klhsB_1 (i : S512x2.Idx) (q : dot_S512x256_S256x2_S512x2_1_0_0_1_n_n.contr.Idx) :
    (dot_S512x256_S256x2_S512x2_1_0_0_1_n_n.lhsIdx i q 1).val = (q ⟨0, by decide⟩).val :=
  dot_S512x256_S256x2_S512x2_1_0_0_1_n_n.lhsIdx_val_of_single rfl i q
theorem krhsB_0 (i : S512x2.Idx) (q : dot_S512x256_S256x2_S512x2_1_0_0_1_n_n.contr.Idx) :
    (dot_S512x256_S256x2_S512x2_1_0_0_1_n_n.rhsIdx i q 0).val = (q ⟨0, by decide⟩).val :=
  dot_S512x256_S256x2_S512x2_1_0_0_1_n_n.rhsIdx_val_of_single rfl i q
theorem krhsB_1 (i : S512x2.Idx) (q : dot_S512x256_S256x2_S512x2_1_0_0_1_n_n.contr.Idx) :
    (dot_S512x256_S256x2_S512x2_1_0_0_1_n_n.rhsIdx i q 1).val = (i 1).val := by
  unfold DotDims.rhsIdx
  rw [dif_neg (show ¬(1 : Fin S256x2.rank) ∈ dot_S512x256_S256x2_S512x2_1_0_0_1_n_n.rhsBatch by decide), dif_pos (show (1 : Fin S256x2.rank) ∈ dot_S512x256_S256x2_S512x2_1_0_0_1_n_n.rhsNonContracting by decide)]
  rfl

/-- A `[512,128] × [128,256]` product into the zero splat, at an entry: the sum over the 128 pooled features. -/
theorem kdotA_apply (l : FVec Ideal S512x128 .bf16) (r : FVec Ideal S128x256 .bf16) (i : S512x256.Idx) :
    matmul dot_S512x128_S128x256_S512x256_1_0_0_1_n_n none l r (constant S512x256 .f32 0x00000000#32) i
      = ∑ k : Fin 128, l (gk i k) * r (kj i k) := by
  simp only [matmul]
  rw [Ideal.matmul_constant_zero_apply, ← Equiv.sum_comp (ValueIdx.contrEquiv1 dot_S512x128_S128x256_S512x256_1_0_0_1_n_n 128 rfl rfl).symm]
  refine Finset.sum_congr rfl fun k _ => ?_
  have hk := ValueIdx.contrEquiv1_symm_val dot_S512x128_S128x256_S512x256_1_0_0_1_n_n 128 rfl rfl k
  have el : dot_S512x128_S128x256_S512x256_1_0_0_1_n_n.lhsIdx i ((ValueIdx.contrEquiv1 dot_S512x128_S128x256_S512x256_1_0_0_1_n_n 128 rfl rfl).symm k) = gk i k := funext fun a => Fin.ext (by
    match a with
    | ⟨0, _⟩ => exact klhsA_0 _ _
    | ⟨1, _⟩ => exact (klhsA_1 _ _).trans hk)
  have er : dot_S512x128_S128x256_S512x256_1_0_0_1_n_n.rhsIdx i ((ValueIdx.contrEquiv1 dot_S512x128_S128x256_S512x256_1_0_0_1_n_n 128 rfl rfl).symm k) = kj i k := funext fun a => Fin.ext (by
    match a with
    | ⟨0, _⟩ => exact (krhsA_0 _ _).trans hk
    | ⟨1, _⟩ => exact krhsA_1 _ _)
  rw [el, er]

/-- A `[512,256] × [256,2]` product into the zero splat, at an entry: the sum over the 256 hidden units. -/
theorem kdotB_apply (l : FVec Ideal S512x256 .bf16) (r : FVec Ideal S256x2 .bf16) (i : S512x2.Idx) :
    matmul dot_S512x256_S256x2_S512x2_1_0_0_1_n_n none l r (constant S512x2 .f32 0x00000000#32) i
      = ∑ j : Fin 256, l (gj i j) * r (jq i j) := by
  simp only [matmul]
  rw [Ideal.matmul_constant_zero_apply, ← Equiv.sum_comp (ValueIdx.contrEquiv1 dot_S512x256_S256x2_S512x2_1_0_0_1_n_n 256 rfl rfl).symm]
  refine Finset.sum_congr rfl fun k _ => ?_
  have hk := ValueIdx.contrEquiv1_symm_val dot_S512x256_S256x2_S512x2_1_0_0_1_n_n 256 rfl rfl k
  have el : dot_S512x256_S256x2_S512x2_1_0_0_1_n_n.lhsIdx i ((ValueIdx.contrEquiv1 dot_S512x256_S256x2_S512x2_1_0_0_1_n_n 256 rfl rfl).symm k) = gj i k := funext fun a => Fin.ext (by
    match a with
    | ⟨0, _⟩ => exact klhsB_0 _ _
    | ⟨1, _⟩ => exact (klhsB_1 _ _).trans hk)
  have er : dot_S512x256_S256x2_S512x2_1_0_0_1_n_n.rhsIdx i ((ValueIdx.contrEquiv1 dot_S512x256_S256x2_S512x2_1_0_0_1_n_n 256 rfl rfl).symm k) = jq i k := funext fun a => Fin.ext (by
    match a with
    | ⟨0, _⟩ => exact (krhsB_0 _ _).trans hk
    | ⟨1, _⟩ => exact krhsB_1 _ _)
  rw [el, er]

/-! ## The body's payload at an entry -/

/-- The hidden layer the body computes from its loaded blocks, before it is narrowed for the second product. -/
abbrev khid (x0 : Vec Ideal S512x128 .f32) (x1 : Vec Ideal S128x256 .f32) (x2 : Vec Ideal S1x256 .f32) : FVec Ideal S512x256 .f32 :=
  maximumf
    (addf
      (matmul dot_S512x128_S128x256_S512x256_1_0_0_1_n_n none
        (truncf .bf16 (shapeCast S512x128 x0 shapeCasts_S512x128_S512x128) bitsLt_bf16_f32) (truncf .bf16 x1 bitsLt_bf16_f32)
        (constant S512x256 .f32 0x00000000#32))
      (broadcastTo S512x256 (shapeCast S1x256 x2 shapeCasts_S1x256_S1x256) broadcasts_S1x256_S512x256))
    (broadcast S512x256 (Scalar.ofBits .f32 0x00000000#32))

/-- The one bias row laid over the 512 graphs, at an entry: the row at the entry's hidden unit. -/
theorem kb1_apply (x2 : Vec Ideal S1x256 .f32) (i : S512x256.Idx) :
    broadcastTo S512x256 x2 broadcasts_S1x256_S512x256 i = x2 (oj i) :=
  broadcastTo_apply x2 broadcasts_S1x256_S512x256 i (oj i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

theorem kb2_apply (x4 : Vec Ideal S1x2 .f32) (i : S512x2.Idx) :
    broadcastTo S512x2 x4 broadcasts_S1x2_S512x2 i = x4 (oq i) :=
  broadcastTo_apply x4 broadcasts_S1x2_S512x2 i (oq i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

/-- The body's hidden layer at an entry `(g, j)`: `max (Σ_k x(g,k) · W₁(k,j) + b₁(0,j), 0)`. -/
theorem khid_apply (x0 : Vec Ideal S512x128 .f32) (x1 : Vec Ideal S128x256 .f32) (x2 : Vec Ideal S1x256 .f32) (i : S512x256.Idx) :
    khid x0 x1 x2 i = max (∑ k : Fin 128, x0 (gk i k) * x1 (kj i k) + x2 (oj i)) 0 := by
  show max (matmul (F := Ideal) dot_S512x128_S128x256_S512x256_1_0_0_1_n_n none
        (truncf .bf16 (shapeCast S512x128 x0 shapeCasts_S512x128_S512x128) bitsLt_bf16_f32) (truncf .bf16 x1 bitsLt_bf16_f32)
        (constant S512x256 .f32 0x00000000#32) i
      + broadcastTo (α := Ideal .f32) S512x256 (shapeCast S1x256 x2 shapeCasts_S1x256_S1x256) broadcasts_S1x256_S512x256 i)
      (Ideal.ofBits .f32 0x00000000#32) = _
  rw [kdotA_apply, shapeCast_self, shapeCast_self, kb1_apply, Ideal.ofBits_zero_f32]
  rfl

/-- The body's payload at an entry `(g, q)`: `Σ_j hidden(g,j) · W₂(j,q) + b₂(0,q)`. -/
theorem pay_apply (x0 : Vec Ideal S512x128 .f32) (x1 : Vec Ideal S128x256 .f32) (x2 : Vec Ideal S1x256 .f32)
    (x3 : Vec Ideal S256x2 .f32) (x4 : Vec Ideal S1x2 .f32) (i : S512x2.Idx) :
    k4_pay1 (F := Ideal) x0 x1 x2 x3 x4 i
      = ∑ j : Fin 256, max (∑ k : Fin 128, x0 (gk (gj i j) k) * x1 (kj (gj i j) k) + x2 (oj (gj i j))) 0 * x3 (jq i j) + x4 (oq i) := by
  unfold k4_pay1
  show matmul (F := Ideal) dot_S512x256_S256x2_S512x2_1_0_0_1_n_n none
        (truncf .bf16 (khid x0 x1 x2) bitsLt_bf16_f32) (truncf .bf16 x3 bitsLt_bf16_f32) (constant S512x2 .f32 0x00000000#32) i
      + broadcastTo (α := Ideal .f32) S512x2 (shapeCast S1x2 x4 shapeCasts_S1x2_S1x2) broadcasts_S1x2_S512x2 i = _
  rw [kdotB_apply, shapeCast_self, kb2_apply]
  refine congrArg (· + x4 (oq i)) (Finset.sum_congr rfl fun j _ => ?_)
  show khid x0 x1 x2 (gj i j) * x3 (jq i j) = _
  rw [khid_apply]

/-! ## The reference's head at an entry

The host's two products over the reference's own records, read at an entry as the same sums; its bias rows and its zero
are `broadcast_in_dim`s. -/

/-- The host's `[512,128] × [128,256]` product at an entry: the sum over the 128 pooled features. -/
theorem rdotA_apply (l : (⟨S512x128, .f32⟩ : BufTy).Contents (Elt Ideal)) (r : (⟨S128x256, .f32⟩ : BufTy).Contents (Elt Ideal)) (i : S512x256.Idx) :
    Host.dotGeneral (F := Ideal) (φ₁ := .f32) (φ₂ := .f32) Cert.ReferenceIdeal.dot_S512x128_S128x256_S512x256_1_0_0_1_n_n none l r i
      = ∑ k : Fin 128, l (gk i k) * r (kj i k) := by
  simp only [Host.dotGeneral]
  rw [Ideal.dotGeneral_apply, ← Equiv.sum_comp (ValueIdx.contrEquiv1 Cert.ReferenceIdeal.dot_S512x128_S128x256_S512x256_1_0_0_1_n_n 128 rfl rfl).symm]
  refine Finset.sum_congr rfl fun k _ => ?_
  have hk := ValueIdx.contrEquiv1_symm_val Cert.ReferenceIdeal.dot_S512x128_S128x256_S512x256_1_0_0_1_n_n 128 rfl rfl k
  have el : Cert.ReferenceIdeal.dot_S512x128_S128x256_S512x256_1_0_0_1_n_n.lhsIdx i ((ValueIdx.contrEquiv1 Cert.ReferenceIdeal.dot_S512x128_S128x256_S512x256_1_0_0_1_n_n 128 rfl rfl).symm k) = gk i k := funext fun a => Fin.ext (by
    match a with
    | ⟨0, _⟩ => exact Cert.ReferenceIdeal.Read.lhs_main_v83_0 _ _
    | ⟨1, _⟩ => exact (Cert.ReferenceIdeal.Read.lhs_main_v83_1 _ _).trans hk)
  have er : Cert.ReferenceIdeal.dot_S512x128_S128x256_S512x256_1_0_0_1_n_n.rhsIdx i ((ValueIdx.contrEquiv1 Cert.ReferenceIdeal.dot_S512x128_S128x256_S512x256_1_0_0_1_n_n 128 rfl rfl).symm k) = kj i k := funext fun a => Fin.ext (by
    match a with
    | ⟨0, _⟩ => exact (Cert.ReferenceIdeal.Read.rhs_main_v83_0 _ _).trans hk
    | ⟨1, _⟩ => exact Cert.ReferenceIdeal.Read.rhs_main_v83_1 _ _)
  rw [el, er]

/-- The host's `[512,256] × [256,2]` product at an entry: the sum over the 256 hidden units. -/
theorem rdotB_apply (l : (⟨S512x256, .f32⟩ : BufTy).Contents (Elt Ideal)) (r : (⟨S256x2, .f32⟩ : BufTy).Contents (Elt Ideal)) (i : S512x2.Idx) :
    Host.dotGeneral (F := Ideal) (φ₁ := .f32) (φ₂ := .f32) Cert.ReferenceIdeal.dot_S512x256_S256x2_S512x2_1_0_0_1_n_n none l r i
      = ∑ j : Fin 256, l (gj i j) * r (jq i j) := by
  simp only [Host.dotGeneral]
  rw [Ideal.dotGeneral_apply, ← Equiv.sum_comp (ValueIdx.contrEquiv1 Cert.ReferenceIdeal.dot_S512x256_S256x2_S512x2_1_0_0_1_n_n 256 rfl rfl).symm]
  refine Finset.sum_congr rfl fun k _ => ?_
  have hk := ValueIdx.contrEquiv1_symm_val Cert.ReferenceIdeal.dot_S512x256_S256x2_S512x2_1_0_0_1_n_n 256 rfl rfl k
  have el : Cert.ReferenceIdeal.dot_S512x256_S256x2_S512x2_1_0_0_1_n_n.lhsIdx i ((ValueIdx.contrEquiv1 Cert.ReferenceIdeal.dot_S512x256_S256x2_S512x2_1_0_0_1_n_n 256 rfl rfl).symm k) = gj i k := funext fun a => Fin.ext (by
    match a with
    | ⟨0, _⟩ => exact Cert.ReferenceIdeal.Read.lhs_main_v88_0 _ _
    | ⟨1, _⟩ => exact (Cert.ReferenceIdeal.Read.lhs_main_v88_1 _ _).trans hk)
  have er : Cert.ReferenceIdeal.dot_S512x256_S256x2_S512x2_1_0_0_1_n_n.rhsIdx i ((ValueIdx.contrEquiv1 Cert.ReferenceIdeal.dot_S512x256_S256x2_S512x2_1_0_0_1_n_n 256 rfl rfl).symm k) = jq i k := funext fun a => Fin.ext (by
    match a with
    | ⟨0, _⟩ => exact (Cert.ReferenceIdeal.Read.rhs_main_v88_0 _ _).trans hk
    | ⟨1, _⟩ => exact Cert.ReferenceIdeal.Read.rhs_main_v88_1 _ _)
  rw [el, er]

/-- The first bias row broadcast over the graphs, at an entry: the row at the entry's hidden unit. -/
theorem rb1_apply (b : (⟨S1x256, .f32⟩ : BufTy).Contents (Elt Ideal)) (i : S512x256.Idx) :
    broadcastInDim S512x256 ![0, 1] Cert.ReferenceIdeal.Facts₀.bcast_S1x256_S512x256_0_1 b i = b (oj i) :=
  broadcastInDim_apply _ Cert.ReferenceIdeal.Facts₀.bcast_S1x256_S512x256_0_1 b i (oj i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- The second bias row broadcast over the graphs, at an entry: the row at the entry's class. -/
theorem rb2_apply (b : (⟨S1x2, .f32⟩ : BufTy).Contents (Elt Ideal)) (i : S512x2.Idx) :
    broadcastInDim S512x2 ![0, 1] Cert.ReferenceIdeal.Facts₀.bcast_S1x2_S512x2_0_1 b i = b (oq i) :=
  broadcastInDim_apply _ Cert.ReferenceIdeal.Facts₀.bcast_S1x2_S512x2_0_1 b i (oq i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

/-- The host's zero, a scalar broadcast to every hidden entry, is the extended real `0`. -/
theorem rzero_apply (i : S512x256.Idx) :
    broadcastInDim S512x256 ![] Cert.ReferenceIdeal.Facts₀.bcast_S_S512x256 (constant (F := Ideal) Cert.ReferenceIdeal.S_ .f32 0x00000000#32) i = (0 : EReal) :=
  (broadcastInDim_apply _ Cert.ReferenceIdeal.Facts₀.bcast_S_S512x256 (constant (F := Ideal) Cert.ReferenceIdeal.S_ .f32 0x00000000#32) i (fun a => a.elim0) (fun a => a.elim0)).trans
    Ideal.ofBits_zero_f32

/-- The reference's hidden layer. -/
abbrev rhid (g : (⟨S512x128, .f32⟩ : BufTy).Contents (Elt Ideal)) (W1 : (⟨S128x256, .f32⟩ : BufTy).Contents (Elt Ideal))
    (b1 : (⟨S1x256, .f32⟩ : BufTy).Contents (Elt Ideal)) : (⟨S512x256, .f32⟩ : BufTy).Contents (Elt Ideal) :=
  maximumf (F := Ideal) (addf (F := Ideal) (Host.dotGeneral (F := Ideal) (φ₁ := .f32) (φ₂ := .f32) Cert.ReferenceIdeal.dot_S512x128_S128x256_S512x256_1_0_0_1_n_n none g W1)
      (broadcastInDim S512x256 ![0, 1] Cert.ReferenceIdeal.Facts₀.bcast_S1x256_S512x256_0_1 b1))
    (broadcastInDim S512x256 ![] Cert.ReferenceIdeal.Facts₀.bcast_S_S512x256 (constant (F := Ideal) Cert.ReferenceIdeal.S_ .f32 0x00000000#32))

/-- The reference's hidden layer at an entry `(g, j)`: `max (Σ_k x(g,k) · W₁(k,j) + b₁(0,j), 0)`. -/
theorem rhid_apply (g : (⟨S512x128, .f32⟩ : BufTy).Contents (Elt Ideal)) (W1 : (⟨S128x256, .f32⟩ : BufTy).Contents (Elt Ideal))
    (b1 : (⟨S1x256, .f32⟩ : BufTy).Contents (Elt Ideal)) (i : S512x256.Idx) :
    rhid g W1 b1 i = max (∑ k : Fin 128, g (gk i k) * W1 (kj i k) + b1 (oj i)) 0 := by
  show max (Host.dotGeneral (F := Ideal) (φ₁ := .f32) (φ₂ := .f32) Cert.ReferenceIdeal.dot_S512x128_S128x256_S512x256_1_0_0_1_n_n none g W1 i
      + broadcastInDim S512x256 ![0, 1] Cert.ReferenceIdeal.Facts₀.bcast_S1x256_S512x256_0_1 b1 i)
      (broadcastInDim S512x256 ![] Cert.ReferenceIdeal.Facts₀.bcast_S_S512x256 (constant (F := Ideal) Cert.ReferenceIdeal.S_ .f32 0x00000000#32) i) = _
  rw [rdotA_apply, rb1_apply, rzero_apply]

/-- The reference's head at an entry `(g, q)`: `Σ_j hidden(g,j) · W₂(j,q) + b₂(0,q)`. -/
theorem headOut_apply (g : (⟨S512x128, .f32⟩ : BufTy).Contents (Elt Ideal)) (W1 : (⟨S128x256, .f32⟩ : BufTy).Contents (Elt Ideal))
    (b1 : (⟨S1x256, .f32⟩ : BufTy).Contents (Elt Ideal)) (W2 : (⟨S256x2, .f32⟩ : BufTy).Contents (Elt Ideal))
    (b2 : (⟨S1x2, .f32⟩ : BufTy).Contents (Elt Ideal)) (i : S512x2.Idx) :
    Cert.Spec.headOut (F := Ideal) g W1 b1 W2 b2 i
      = ∑ j : Fin 256, max (∑ k : Fin 128, g (gk (gj i j) k) * W1 (kj (gj i j) k) + b1 (oj (gj i j))) 0 * W2 (jq i j) + b2 (oq i) := by
  unfold Cert.Spec.headOut
  show Host.dotGeneral (F := Ideal) (φ₁ := .f32) (φ₂ := .f32) Cert.ReferenceIdeal.dot_S512x256_S256x2_S512x2_1_0_0_1_n_n none (rhid g W1 b1) W2 i
      + broadcastInDim S512x2 ![0, 1] Cert.ReferenceIdeal.Facts₀.bcast_S1x2_S512x2_0_1 b2 i = _
  rw [rdotB_apply, rb2_apply]
  refine congrArg (· + b2 (oq i)) (Finset.sum_congr rfl fun j _ => ?_)
  rw [rhid_apply]

/-- So the body's payload IS the reference's head of the same five operands, as whole arrays. -/
theorem pay_eq_headOut (x0 : Vec Ideal S512x128 .f32) (x1 : Vec Ideal S128x256 .f32) (x2 : Vec Ideal S1x256 .f32)
    (x3 : Vec Ideal S256x2 .f32) (x4 : Vec Ideal S1x2 .f32) :
    k4_pay1 (F := Ideal) x0 x1 x2 x3 x4 = Cert.Spec.headOut (F := Ideal) x0 x1 x2 x3 x4 :=
  funext fun i => (pay_apply x0 x1 x2 x3 x4 i).trans (headOut_apply x0 x1 x2 x3 x4 i).symm

/-! ## From the one block to the array

The grid has one point, and at it every window's block is block `(0, 0)` of a window as large as its array: each
loaded block is the whole operand, and the stored block is the whole output. -/

variable (V : (c : Dev nD) → (b : Ref sig .tc) → Buf (Elt Ideal) ((c : Thread nD τ).loc b))

/-- The printed index maps, decided over the grid: every block index is `0` on both axes. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The pooled features' block is the whole `[512, 128]` array. -/
theorem blk0_eq (c : Dev nD) (t : Fin cfg4.N) : (iblk4 V c 0 t : Vec Ideal S512x128 .f32) = V c main_v73 := by
  obtain ⟨e00, e01, e10, e11, e20, e21, e30, e31, e40, e41, e50, e51⟩ := idx_facts t
  funext x
  show V c main_v73 (((cfg4.win 0).blk t).view.emb x) = V c main_v73 x
  refine congrArg (V c main_v73) (funext fun a => Fin.ext ?_)
  match a with
  | ⟨0, _⟩ => show win4_0.index t (0 : Fin 2) * 512 + 1 * (x 0).val = (x 0).val; omega
  | ⟨1, _⟩ => show win4_0.index t (1 : Fin 2) * 128 + 1 * (x 1).val = (x 1).val; omega

/-- The first weight's block is the whole `[128, 256]` array. -/
theorem blk1_eq (c : Dev nD) (t : Fin cfg4.N) : (iblk4 V c 1 t : Vec Ideal S128x256 .f32) = V c main_arg10 := by
  obtain ⟨e00, e01, e10, e11, e20, e21, e30, e31, e40, e41, e50, e51⟩ := idx_facts t
  funext x
  show V c main_arg10 (((cfg4.win 1).blk t).view.emb x) = V c main_arg10 x
  refine congrArg (V c main_arg10) (funext fun a => Fin.ext ?_)
  match a with
  | ⟨0, _⟩ => show win4_1.index t (0 : Fin 2) * 128 + 1 * (x 0).val = (x 0).val; omega
  | ⟨1, _⟩ => show win4_1.index t (1 : Fin 2) * 256 + 1 * (x 1).val = (x 1).val; omega

/-- The first bias row's block is the whole `[1, 256]` array. -/
theorem blk2_eq (c : Dev nD) (t : Fin cfg4.N) : (iblk4 V c 2 t : Vec Ideal S1x256 .f32) = V c main_v74 := by
  obtain ⟨e00, e01, e10, e11, e20, e21, e30, e31, e40, e41, e50, e51⟩ := idx_facts t
  funext x
  show V c main_v74 (((cfg4.win 2).blk t).view.emb x) = V c main_v74 x
  refine congrArg (V c main_v74) (funext fun a => Fin.ext ?_)
  match a with
  | ⟨0, _⟩ => show win4_2.index t (0 : Fin 2) * 1 + 1 * (x 0).val = (x 0).val; omega
  | ⟨1, _⟩ => show win4_2.index t (1 : Fin 2) * 256 + 1 * (x 1).val = (x 1).val; omega

/-- The second weight's block is the whole `[256, 2]` array. -/
theorem blk3_eq (c : Dev nD) (t : Fin cfg4.N) : (iblk4 V c 3 t : Vec Ideal S256x2 .f32) = V c main_arg12 := by
  obtain ⟨e00, e01, e10, e11, e20, e21, e30, e31, e40, e41, e50, e51⟩ := idx_facts t
  funext x
  show V c main_arg12 (((cfg4.win 3).blk t).view.emb x) = V c main_arg12 x
  refine congrArg (V c main_arg12) (funext fun a => Fin.ext ?_)
  match a with
  | ⟨0, _⟩ => show win4_3.index t (0 : Fin 2) * 256 + 1 * (x 0).val = (x 0).val; omega
  | ⟨1, _⟩ => show win4_3.index t (1 : Fin 2) * 2 + 1 * (x 1).val = (x 1).val; omega

/-- The second bias row's block is the whole `[1, 2]` array. -/
theorem blk4_eq (c : Dev nD) (t : Fin cfg4.N) : (iblk4 V c 4 t : Vec Ideal S1x2 .f32) = V c main_v75 := by
  obtain ⟨e00, e01, e10, e11, e20, e21, e30, e31, e40, e41, e50, e51⟩ := idx_facts t
  funext x
  show V c main_v75 (((cfg4.win 4).blk t).view.emb x) = V c main_v75 x
  refine congrArg (V c main_v75) (funext fun a => Fin.ext ?_)
  match a with
  | ⟨0, _⟩ => show win4_4.index t (0 : Fin 2) * 1 + 1 * (x 0).val = (x 0).val; omega
  | ⟨1, _⟩ => show win4_4.index t (1 : Fin 2) * 2 + 1 * (x 1).val = (x 1).val; omega

/-- WHAT THE POINT WRITES BACK is its block of the reference's head of the five operand arrays as the region finds them. -/
theorem flushed_eq (c : Dev nD) (t : Fin cfg4.N) :
    (dat4 V c).flushed 5 t = ((cfg4.win 5).blk t).view.read (Elt Ideal)
      (Cert.Spec.headOut (F := Ideal) (V c main_v73) (V c main_arg10) (V c main_v74) (V c main_arg12) (V c main_v75)) := by
  show (cfg4.win 5).cut (grid4.coords t) ((dat4 V c).after 5 t) = _
  rw [after4_5]
  unfold out4_5
  rw [View.canon_unit_zero hz]
  simp only [View.ld_unit_zero (S := S512x128) hz, View.ld_unit_zero (S := S128x256) hz, View.ld_unit_zero (S := S1x256) hz,
    View.ld_unit_zero (S := S256x2) hz, View.ld_unit_zero (S := S1x2) hz]
  rw [blk0_eq V c t, blk1_eq V c t, blk2_eq V c t, blk3_eq V c t, blk4_eq V c t, pay_eq_headOut]
  obtain ⟨e00, e01, e10, e11, e20, e21, e30, e31, e40, e41, e50, e51⟩ := idx_facts t
  funext j
  show Cert.Spec.headOut (F := Ideal) (V c main_v73) (V c main_arg10) (V c main_v74) (V c main_arg12) (V c main_v75) j
    = Cert.Spec.headOut (F := Ideal) (V c main_v73) (V c main_arg10) (V c main_v74) (V c main_arg12) (V c main_v75) (((cfg4.win 5).blk t).view.emb j)
  refine congrArg (Cert.Spec.headOut (F := Ideal) (V c main_v73) (V c main_arg10) (V c main_v74) (V c main_arg12) (V c main_v75)) (funext fun a => Fin.ext ?_)
  match a with
  | ⟨0, _⟩ => show (j 0).val = win4_5.index t (0 : Fin 2) * 512 + 1 * (j 0).val; omega
  | ⟨1, _⟩ => show (j 1).val = win4_5.index t (1 : Fin 2) * 2 + 1 * (j 1).val; omega

/-- An index of the output array is in the point's block iff each coordinate is in the block's range on its axis. -/
theorem mem_blk (t : Fin cfg4.N) (i : S512x2.Idx) :
    i ∈ ((cfg4.win 5).blk t).view.set ↔ ∀ a : Fin 2, win4_5.index t a * S512x2.size a ≤ (i a).val ∧ (i a).val < win4_5.index t a * S512x2.size a + S512x2.size a := by
  show i ∈ ((View.whole main_v76).slice (win4_5.rect t)).set ↔ _
  rw [View.set_slice_whole, Rect.mem_set_unit]
  exact Iff.rfl

/-- Every index of the `[512, 2]` output is in the one point's block, which starts at `(0, 0)` and is `512 × 2`. -/
theorem cover (i : S512x2.Idx) : ∃ t : Fin cfg4.N, (cfg4.win 5).flush t = true ∧ i ∈ ((cfg4.win 5).blk t).view.set := by
  refine ⟨t4_0, flush4_5 t4_0, ?_⟩
  rw [mem_blk]
  obtain ⟨e00, e01, e10, e11, e20, e21, e30, e31, e40, e41, e50, e51⟩ := idx_facts t4_0
  have h0 : (i 0).val < 512 := (i 0).isLt
  have h1 : (i 1).val < 2 := (i 1).isLt
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 2 ≤ (i 1).val ∧ (i 1).val < win4_5.index t4_0 (1 : Fin 2) * 2 + 2; omega

/-- THE OUTPUT ARRAY after the region: the reference's head of the five operand arrays. -/
theorem region4_out5 (c : Dev nD) :
    (dat4 V c).arrAt 5 cfg4.N
      = Cert.Spec.headOut (F := Ideal) (V c main_v73) (V c main_arg10) (V c main_v74) (V c main_arg12) (V c main_v75) :=
  (dat4 V c).arrAt_eq_of_cover 5 _ (fun t _ => flushed_eq V c t) (fun i => cover i)

end Cert.KernelIdeal.RegionValue4

end
-- ==== Proof.Walk3.lean ====
/-
  The pooling and the head. After region 3 the host adds the node embedding up per graph, counts each graph's nodes,
  and divides by the count clamped below at one: the graph embedding, by the reference's own operations. The two
  head biases reach the last region as one-row matrices. Region 4 leaves `max (g · mW1 + mb1, 0) · mW2 + mb2`, which
  is the reference's last stage. So the result array the kernel program ends with is the reference's result as one
  function of the fourteen launched arguments.
-/
import proofs.«405618_j49297634623854_2_alg».proof.Proof.Walk2
import proofs.«405618_j49297634623854_2_alg».proof.Proof.Region4
import proofs.«405618_j49297634623854_2_alg».proof.Proof.Spec
import proofs.«405618_j49297634623854_2_alg».proof.Proof.LibRowVector

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-! ## The pooling stretch, over any contents it starts from -/

section Stretch
variable (Vv : Valuation τ sig (Elt Ideal))
variable (x0 : (⟨Cert.ReferenceIdeal.S100000x128, .f32⟩ : BufTy).Contents (Elt Ideal))
variable (x1 : (⟨Cert.ReferenceIdeal.S2x640000, .i32⟩ : BufTy).Contents (Elt Ideal))
variable (x2 : (⟨Cert.ReferenceIdeal.S640000x1, .f32⟩ : BufTy).Contents (Elt Ideal))
variable (x4 x5 : (⟨Cert.ReferenceIdeal.S128x128, .f32⟩ : BufTy).Contents (Elt Ideal))
variable (x6 : (⟨Cert.ReferenceIdeal.S128, .f32⟩ : BufTy).Contents (Elt Ideal))
variable (x7 x8 : (⟨Cert.ReferenceIdeal.S128x128, .f32⟩ : BufTy).Contents (Elt Ideal))
variable (x9 : (⟨Cert.ReferenceIdeal.S128, .f32⟩ : BufTy).Contents (Elt Ideal))
variable (x3 : (⟨Cert.ReferenceIdeal.S100000, .i32⟩ : BufTy).Contents (Elt Ideal))
variable (x10 : (⟨Cert.ReferenceIdeal.S128x256, .f32⟩ : BufTy).Contents (Elt Ideal))
variable (x11 : (⟨Cert.ReferenceIdeal.S256, .f32⟩ : BufTy).Contents (Elt Ideal))
variable (x12 : (⟨Cert.ReferenceIdeal.S256x2, .f32⟩ : BufTy).Contents (Elt Ideal))
variable (x13 : (⟨Cert.ReferenceIdeal.S2, .f32⟩ : BufTy).Contents (Elt Ideal))

/-- The mean of the node embedding over each graph's nodes. -/
theorem stretch4_pool (hg : Vv (Proc.devRef .tc main_arg3) = x3)
    (hn : Vv (Proc.devRef .tc main_v61) = Cert.ReferenceIdeal.Read.val_main_v70 (F := Ideal) x0 x1 x2 x4 x5 x6 x7 x8 x9) :
    StableHlo.after hostOps4 Vv (Proc.devRef .tc main_v73)
      = Cert.ReferenceIdeal.Read.val_main_v82 (F := Ideal) x0 x1 x2 x3 x4 x5 x6 x7 x8 x9 := by
  after_results_simp
  rw [hg, hn]
  simp only [Cert.ReferenceIdeal.Read.val_main_cst_12, Cert.ReferenceIdeal.Read.val_main_v71, Cert.ReferenceIdeal.Read.val_main_cst_13, Cert.ReferenceIdeal.Read.val_main_v72, Cert.ReferenceIdeal.Read.val_main_v73, Cert.ReferenceIdeal.Read.val_main_v74, Cert.ReferenceIdeal.Read.val_main_cst_14, Cert.ReferenceIdeal.Read.val_main_v75, Cert.ReferenceIdeal.Read.val_main_v76, Cert.ReferenceIdeal.Read.val_main_v77, Cert.ReferenceIdeal.Read.val_main_cst_15, Cert.ReferenceIdeal.Read.val_main_v78, Cert.ReferenceIdeal.Read.val_main_v79, Cert.ReferenceIdeal.Read.val_main_v80, Cert.ReferenceIdeal.Read.val_main_v81, Cert.ReferenceIdeal.Read.val_main_v82]
  rfl

/-- The hidden layer's bias as one row. -/
theorem stretch4_bias1 (hb : Vv (Proc.devRef .tc main_arg11) = x11) :
    StableHlo.after hostOps4 Vv (Proc.devRef .tc main_v74) = Cert.ReferenceIdeal.Read.val_main_v84 (F := Ideal) x11 := by
  after_results_simp
  rw [hb]
  simp only [Cert.ReferenceIdeal.Read.val_main_v84]
  exact Cert.LibRowVector.shapeCast_row_eq_broadcastInDim x11 _ _

/-- The output layer's bias as one row. -/
theorem stretch4_bias2 (hb : Vv (Proc.devRef .tc main_arg13) = x13) :
    StableHlo.after hostOps4 Vv (Proc.devRef .tc main_v75) = Cert.ReferenceIdeal.Read.val_main_v89 (F := Ideal) x13 := by
  after_results_simp
  rw [hb]
  simp only [Cert.ReferenceIdeal.Read.val_main_v89]
  exact Cert.LibRowVector.shapeCast_row_eq_broadcastInDim x13 _ _

end Stretch

section Head
variable (x0 : (⟨Cert.ReferenceIdeal.S100000x128, .f32⟩ : BufTy).Contents (Elt Ideal))
variable (x1 : (⟨Cert.ReferenceIdeal.S2x640000, .i32⟩ : BufTy).Contents (Elt Ideal))
variable (x2 : (⟨Cert.ReferenceIdeal.S640000x1, .f32⟩ : BufTy).Contents (Elt Ideal))
variable (x4 x5 : (⟨Cert.ReferenceIdeal.S128x128, .f32⟩ : BufTy).Contents (Elt Ideal))
variable (x6 : (⟨Cert.ReferenceIdeal.S128, .f32⟩ : BufTy).Contents (Elt Ideal))
variable (x7 x8 : (⟨Cert.ReferenceIdeal.S128x128, .f32⟩ : BufTy).Contents (Elt Ideal))
variable (x9 : (⟨Cert.ReferenceIdeal.S128, .f32⟩ : BufTy).Contents (Elt Ideal))
variable (x3 : (⟨Cert.ReferenceIdeal.S100000, .i32⟩ : BufTy).Contents (Elt Ideal))
variable (x10 : (⟨Cert.ReferenceIdeal.S128x256, .f32⟩ : BufTy).Contents (Elt Ideal))
variable (x11 : (⟨Cert.ReferenceIdeal.S256, .f32⟩ : BufTy).Contents (Elt Ideal))
variable (x12 : (⟨Cert.ReferenceIdeal.S256x2, .f32⟩ : BufTy).Contents (Elt Ideal))
variable (x13 : (⟨Cert.ReferenceIdeal.S2, .f32⟩ : BufTy).Contents (Elt Ideal))

/-- The head of the graph embedding is the reference's result. -/
theorem head_eq :
    Cert.Spec.headOut (F := Ideal) (Cert.ReferenceIdeal.Read.val_main_v82 (F := Ideal) x0 x1 x2 x3 x4 x5 x6 x7 x8 x9) x10
        (Cert.ReferenceIdeal.Read.val_main_v84 (F := Ideal) x11) x12 (Cert.ReferenceIdeal.Read.val_main_v89 (F := Ideal) x13)
      = Cert.ReferenceIdeal.Read.val_main_v91 (F := Ideal) x0 x1 x2 x3 x4 x5 x6 x7 x8 x9 x10 x11 x12 x13 := by
  simp only [Cert.ReferenceIdeal.Read.val_main_v91, Cert.ReferenceIdeal.Read.val_main_v90, Cert.ReferenceIdeal.Read.val_main_v88, Cert.ReferenceIdeal.Read.val_main_v87, Cert.ReferenceIdeal.Read.val_main_v86, Cert.ReferenceIdeal.Read.val_main_v85, Cert.ReferenceIdeal.Read.val_main_v83, Cert.ReferenceIdeal.Read.val_main_call4_cst, Cert.ReferenceIdeal.Read.val_main_call4_v0, Cert.Spec.headOut]

end Head

variable (m : (ℓ : Loc nD τ sig) → Buf (Elt Ideal) ℓ) (ρ : Dev nD → PrngReg)

/-! ## At region 4's entry -/

theorem entry4_pool (c : Dev nD) :
    W10 m ρ c (Proc.devRef .tc main_v73)
      = Cert.ReferenceIdeal.Read.val_main_v82 (F := Ideal) (x m c) (edges m c) (weights m c) (graphOf m c) (Wi1 m c) (Wr1 m c) (b1 m c) (Wi2 m c) (Wr2 m c) (b2 m c) :=
  stretch4_pool (W9 m ρ c) _ _ _ _ _ _ _ _ _ _ (exit3_graphOf m ρ c) (exit3_node m ρ c)
theorem entry4_bias1 (c : Dev nD) : W10 m ρ c (Proc.devRef .tc main_v74) = Cert.ReferenceIdeal.Read.val_main_v84 (F := Ideal) (mb1 m c) :=
  stretch4_bias1 (W9 m ρ c) _ (exit3_mb1 m ρ c)
theorem entry4_bias2 (c : Dev nD) : W10 m ρ c (Proc.devRef .tc main_v75) = Cert.ReferenceIdeal.Read.val_main_v89 (F := Ideal) (mb2 m c) :=
  stretch4_bias2 (W9 m ρ c) _ (exit3_mb2 m ρ c)
theorem entry4_mW1 (c : Dev nD) : W10 m ρ c (Proc.devRef .tc main_arg10) = mW1 m c :=
  Eq.trans (by kept_through hostOps4) (exit3_mW1 m ρ c)
theorem entry4_mW2 (c : Dev nD) : W10 m ρ c (Proc.devRef .tc main_arg12) = mW2 m c :=
  Eq.trans (by kept_through hostOps4) (exit3_mW2 m ρ c)

/-! ## The result -/

/-- THE KERNEL PROGRAM'S RESULT: at the last boundary the result array is the reference's last stage of the launched
    arguments. -/
theorem result_eq (c : Dev nD) :
    W11 m ρ c (Proc.devRef .tc main_v76)
      = Cert.ReferenceIdeal.Read.val_main_v91 (F := Ideal) (x m c) (edges m c) (weights m c) (graphOf m c) (Wi1 m c) (Wr1 m c) (b1 m c)
          (Wi2 m c) (Wr2 m c) (b2 m c) (mW1 m c) (mb1 m c) (mW2 m c) (mb2 m c) := by
  refine (W11_arr m ρ c 5).trans ((RegionValue4.region4_out5 (V10 m ρ) c).trans ?_)
  have hg : V10 m ρ c main_v73 = Cert.ReferenceIdeal.Read.val_main_v82 (F := Ideal) (x m c) (edges m c) (weights m c) (graphOf m c) (Wi1 m c) (Wr1 m c) (b1 m c) (Wi2 m c) (Wr2 m c) (b2 m c) := entry4_pool m ρ c
  have h1 : V10 m ρ c main_arg10 = mW1 m c := entry4_mW1 m ρ c
  have hb1 : V10 m ρ c main_v74 = Cert.ReferenceIdeal.Read.val_main_v84 (F := Ideal) (mb1 m c) := entry4_bias1 m ρ c
  have h2 : V10 m ρ c main_arg12 = mW2 m c := entry4_mW2 m ρ c
  have hb2 : V10 m ρ c main_v75 = Cert.ReferenceIdeal.Read.val_main_v89 (F := Ideal) (mb2 m c) := entry4_bias2 m ρ c
  rw [hg, h1, hb1, h2, hb2]
  exact head_eq _ _ _ _ _ _ _ _ _ _ _ _ _ _

end Cert.KernelIdeal.Walk

end
-- ==== Proof.lean ====
/-
  The certificate of a two-layer graph network with mean pooling and a small head.
  Both programs compute, from the node features `x`, the edge list, the edge weights, each node's graph and the
  weights: the symmetric normalisation `dinv[row] · w · dinv[col]` of each edge, with `dinv` the inverse square root of
  a node's weighted in-degree where it is positive and zero elsewhere; two layers `h ↦ max (A (h · Wi) + h · Wr + b, 0)`,
  where `A` gathers a row at each edge's source, scales it by the edge's normalisation and adds it at the edge's target;
  the mean of the node embedding over each graph; and `max (g · mW1 + mb1, 0) · mW2 + mb2`.
  The kernel program does the edge work on the host, by the reference's own operations, and the dense work in five
  regions: the products `h · Wi`, `h · Wr` twenty row blocks at a time, the sum-and-clamp likewise, the head in one
  block. At the extended reals a change of float format is the identity and a block of rows of a product is the same
  rows of the whole product, so each region leaves the whole-array function the reference applies; a bias passed as a
  one-row matrix is the reference's broadcast of the vector; and where the reference clamps the first layer's output
  at zero a second time nothing changes. No step moves a factor across a sum or cancels, so the inputs' finiteness is
  never used. Hence the kernel program's result array is the reference's last stage of the fourteen launched
  arguments, and the reference's run ends with that same stage of its own arguments, which agree.
  The frames of the two kernel programs and the reference's run are generated and imported; the kernel program's run
  with its result array named is in Proof/KernelRun.lean; the regions' arrays are in Proof/Region0 … Region4, the
  boundaries between the segments in Proof/Walk0 … Walk3.
-/
import proofs.«405618_j49297634623854_2_alg».proof.Defs
import proofs.«405618_j49297634623854_2_alg».proof.Proof.Gen.Kernel
import proofs.«405618_j49297634623854_2_alg».proof.Proof.Gen.Kernel.Skeleton
import proofs.«405618_j49297634623854_2_alg».proof.Proof.Gen.Kernel.Launch
import proofs.«405618_j49297634623854_2_alg».proof.Proof.Gen.Kernel.Points
import proofs.«405618_j49297634623854_2_alg».proof.Proof.Gen.Kernel.Frame
import proofs.«405618_j49297634623854_2_alg».proof.Proof.Gen.KernelIdeal
import proofs.«405618_j49297634623854_2_alg».proof.Proof.Gen.KernelIdeal.Skeleton
import proofs.«405618_j49297634623854_2_alg».proof.Proof.Gen.KernelIdeal.Launch
import proofs.«405618_j49297634623854_2_alg».proof.Proof.Gen.KernelIdeal.Points
import proofs.«405618_j49297634623854_2_alg».proof.Proof.Gen.KernelIdeal.Frame
import proofs.«405618_j49297634623854_2_alg».proof.Proof.Gen.ReferenceIdeal
import proofs.«405618_j49297634623854_2_alg».proof.Proof.Gen.Pre_finite_inputs
import proofs.«405618_j49297634623854_2_alg».proof.Proof.Gen.ReferenceIdeal.Run
import proofs.«405618_j49297634623854_2_alg».proof.Proof.Gen.ReferenceIdeal.Read
import proofs.«405618_j49297634623854_2_alg».proof.Proof.KernelRun
import proofs.«405618_j49297634623854_2_alg».proof.Proof.Walk3
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ
/-- The idealized kernel program likewise. -/
theorem frame_kernelIdeal : Cert.frame_KernelIdeal := fun m ρ _ => Cert.KernelIdeal.Gen.frame m ρ
/-- The reference runs and leaves its arguments as launched: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.ReferenceIdeal.Read.val_main_v91 (F := Ideal)
    (Cert.KernelIdeal.Walk.x m c) (Cert.KernelIdeal.Walk.edges m c) (Cert.KernelIdeal.Walk.weights m c) (Cert.KernelIdeal.Walk.graphOf m c) (Cert.KernelIdeal.Walk.Wi1 m c) (Cert.KernelIdeal.Walk.Wr1 m c) (Cert.KernelIdeal.Walk.b1 m c) (Cert.KernelIdeal.Walk.Wi2 m c) (Cert.KernelIdeal.Walk.Wr2 m c) (Cert.KernelIdeal.Walk.b2 m c) (Cert.KernelIdeal.Walk.mW1 m c) (Cert.KernelIdeal.Walk.mb1 m c) (Cert.KernelIdeal.Walk.mW2 m c) (Cert.KernelIdeal.Walk.mb2 m c), ?_, ?_⟩
  · exact (θ_run Cert.KernelIdeal.defs _ _).mono
      (fun r h c => ⟨(h c).1.trans (Cert.KernelIdeal.Walk.result_eq m ρ c), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v91_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
